-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S1x11 : Shape := ⟨2, ![1, 11]⟩
abbrev S11 : Shape := ⟨1, ![11]⟩
abbrev S11x128 : Shape := ⟨2, ![11, 128]⟩
abbrev S1001x128 : Shape := ⟨2, ![1001, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S1x11 : S_.BroadcastsInDim S1x11 (![] : Fin 0 → Fin S1x11.rank)
  reducesTo_S1x11_S_d0_1 : S1x11.ReducesTo [0, 1] S_
  bcast_S_S11 : S_.BroadcastsInDim S11 (![] : Fin 0 → Fin S11.rank)
  reducesTo_S11_S_d0 : S11.ReducesTo [0] S_
  bcast_S_S11x128 : S_.BroadcastsInDim S11x128 (![] : Fin 0 → Fin S11x128.rank)
  reducesTo_S11x128_S_d0_1 : S11x128.ReducesTo [0, 1] S_
  bcast_S_S1001x128 : S_.BroadcastsInDim S1001x128 (![] : Fin 0 → Fin S1001x128.rank)
  reducesTo_S1001x128_S_d0_1 : S1001x128.ReducesTo [0, 1] S_

variable [Facts]

def fn_part1 {F : FTy → Type} [FloatOps F] (main_arg1 : IVec S4096x200 32) (main_arg6 : FVec F S1001x128 .f32) (main_v13 : IVec S_ 1) (main_v16 : IVec S11x128 1) : IVec S_ 1 :=
  let main_c_5 : IVec S_ 1 := constantI S_ 1 1#1
  let main_v17 : IVec S_ 1 := (fun x v => Host.reduce IntOp.andi x v reducesTo_S11x128_S_d0_1 h_S_) main_v16 main_c_5
  let main_v18 : IVec S_ 1 := andi main_v13 main_v17
  let main_v19 : FVec F S1001x128 .f32 := Host.absf main_arg6
  let main_cst_6 : FVec F S_ .f32 := constant S_ .f32 0x7F800000#32
  let main_v20 : FVec F S1001x128 .f32 := broadcastInDim S1001x128 ![] bcast_S_S1001x128 main_cst_6
  let main_v21 : IVec S1001x128 1 := cmpf .olt main_v19 main_v20
  let main_c_7 : IVec S_ 1 := constantI S_ 1 1#1
  let main_v22 : IVec S_ 1 := (fun x v => Host.reduce IntOp.andi x v reducesTo_S1001x128_S_d0_1 h_S_) main_v21 main_c_7
  let main_v23 : IVec S_ 1 := andi main_v18 main_v22
  let main_c_8 : IVec S_ 32 := constantI S_ 32 0#32
  let main_v24 : IVec S4096x200 32 := broadcastInDim S4096x200 ![] bcast_S_S4096x200 main_c_8
  let main_v25 : IVec S4096x200 1 := cmpi .sge main_arg1 main_v24
  let main_c_9 : IVec S_ 1 := constantI S_ 1 1#1
  let main_v26 : IVec S_ 1 := (fun x v => Host.reduce IntOp.andi x v reducesTo_S4096x200_S_d0_1 h_S_) main_v25 main_c_9
  let main_v27 : IVec S_ 1 := andi main_v23 main_v26
  let main_c_10 : IVec S_ 32 := constantI S_ 32 1000#32
  let main_v28 : IVec S4096x200 32 := broadcastInDim S4096x200 ![] bcast_S_S4096x200 main_c_10
  let main_v29 : IVec S4096x200 1 := cmpi .sle main_arg1 main_v28
  let main_c_11 : IVec S_ 1 := constantI S_ 1 1#1
  let main_v30 : IVec S_ 1 := (fun x v => Host.reduce IntOp.andi x v reducesTo_S4096x200_S_d0_1 h_S_) main_v29 main_c_11
  let main_v31 : IVec S_ 1 := andi main_v27 main_v30
  main_v31

def fn {F : FTy → Type} [FloatOps F] (main_arg0 : FVec F S4096x200 .f32) (main_arg1 : IVec S4096x200 32) (main_arg2 : IVec S4096x200 32) (main_arg3 : FVec F S1x11 .f32) (main_arg4 : FVec F S11 .f32) (main_arg5 : FVec F S11x128 .f32) (main_arg6 : FVec F S1001x128 .f32) : IVec S_ 1 :=
  let main_v0 : FVec F S4096x200 .f32 := Host.absf main_arg0
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  let main_v4 : FVec F S1x11 .f32 := Host.absf main_arg3
  let main_cst_0 : FVec F S_ .f32 := constant S_ .f32 0x7F800000#32
  let main_v5 : FVec F S1x11 .f32 := broadcastInDim S1x11 ![] bcast_S_S1x11 main_cst_0
  let main_v6 : IVec S1x11 1 := cmpf .olt main_v4 main_v5
  let main_c_1 : IVec S_ 1 := constantI S_ 1 1#1
  let main_v7 : IVec S_ 1 := (fun x v => Host.reduce IntOp.andi x v reducesTo_S1x11_S_d0_1 h_S_) main_v6 main_c_1
  let main_v8 : IVec S_ 1 := andi main_v3 main_v7
  let main_v9 : FVec F S11 .f32 := Host.absf main_arg4
  let main_cst_2 : FVec F S_ .f32 := constant S_ .f32 0x7F800000#32
  let main_v10 : FVec F S11 .f32 := broadcastInDim S11 ![] bcast_S_S11 main_cst_2
  let main_v11 : IVec S11 1 := cmpf .olt main_v9 main_v10
  let main_c_3 : IVec S_ 1 := constantI S_ 1 1#1
  let main_v12 : IVec S_ 1 := (fun x v => Host.reduce IntOp.andi x v reducesTo_S11_S_d0 h_S_) main_v11 main_c_3
  let main_v13 : IVec S_ 1 := andi main_v8 main_v12
  let main_v14 : FVec F S11x128 .f32 := Host.absf main_arg5
  let main_cst_4 : FVec F S_ .f32 := constant S_ .f32 0x7F800000#32
  let main_v15 : FVec F S11x128 .f32 := broadcastInDim S11x128 ![] bcast_S_S11x128 main_cst_4
  let main_v16 : IVec S11x128 1 := cmpf .olt main_v14 main_v15
  fn_part1 (F := F) main_arg1 main_arg6 main_v13 main_v16
-- ==== Kernel.lean ====
abbrev S4096x200 : Shape := ⟨2, ![4096, 200]⟩
abbrev S1x11 : Shape := ⟨2, ![1, 11]⟩
abbrev S11 : Shape := ⟨1, ![11]⟩
abbrev S11x128 : Shape := ⟨2, ![11, 128]⟩
abbrev S1001x128 : Shape := ⟨2, ![1001, 128]⟩
abbrev S_ : Shape := ⟨0, ![]⟩
abbrev S1024x128 : Shape := ⟨2, ![1024, 128]⟩
abbrev S4096x200x1 : Shape := ⟨3, ![4096, 200, 1]⟩
abbrev S4096x200x128 : Shape := ⟨3, ![4096, 200, 128]⟩
abbrev S32x200x1 : Shape := ⟨3, ![32, 200, 1]⟩
abbrev S32x200 : Shape := ⟨2, ![32, 200]⟩
abbrev S32x200x128 : Shape := ⟨3, ![32, 200, 128]⟩
abbrev S6400x1 : Shape := ⟨2, ![6400, 1]⟩
abbrev S6400x11 : Shape := ⟨2, ![6400, 11]⟩
abbrev S6400x128 : Shape := ⟨2, ![6400, 128]⟩
abbrev S1x256 : Shape := ⟨2, ![1, 256]⟩
abbrev S6400x256 : Shape := ⟨2, ![6400, 256]⟩
abbrev S256x128 : Shape := ⟨2, ![256, 128]⟩

abbrev nBuf : Space → Nat
  | .hbm => 16
  | .vmem => 16
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S4096x200, .i32⟩
  | .hbm, ⟨3, _⟩ => ⟨S1x11, .f32⟩
  | .hbm, ⟨4, _⟩ => ⟨S11, .f32⟩
  | .hbm, ⟨5, _⟩ => ⟨S11x128, .f32⟩
  | .hbm, ⟨6, _⟩ => ⟨S1001x128, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S4096x200x1, .f32⟩
  | .hbm, ⟨12, _⟩ => ⟨S4096x200x1, .i32⟩
  | .hbm, ⟨13, _⟩ => ⟨S4096x200x1, .i32⟩
  | .hbm, ⟨14, _⟩ => ⟨S4096x200x128, .f32⟩
  | .hbm, ⟨15, _⟩ => ⟨S4096x200, .f32⟩
  | .local _ .vmem, ⟨0, _⟩ => ⟨S32x200x1, .f32⟩
  | .local _ .vmem, ⟨1, _⟩ => ⟨S32x200x1, .f32⟩
  | .local _ .vmem, ⟨2, _⟩ => ⟨S32x200x1, .i32⟩
  | .local _ .vmem, ⟨3, _⟩ => ⟨S32x200x1, .i32⟩
  | .local _ .vmem, ⟨4, _⟩ => ⟨S32x200x1, .i32⟩
  | .local _ .vmem, ⟨5, _⟩ => ⟨S32x200x1, .i32⟩
  | .local _ .vmem, ⟨6, _⟩ => ⟨S32x200, .i32⟩
  | .local _ .vmem, ⟨7, _⟩ => ⟨S32x200, .i32⟩
  | .local _ .vmem, ⟨8, _⟩ => ⟨S1x11, .f32⟩
  | .local _ .vmem, ⟨9, _⟩ => ⟨S11, .f32⟩
  | .local _ .vmem, ⟨10, _⟩ => ⟨S11x128, .f32⟩
  | .local _ .vmem, ⟨11, _⟩ => ⟨S1024x128, .bf16⟩
  | .local _ .vmem, ⟨12, _⟩ => ⟨S32x200x128, .f32⟩
  | .local _ .vmem, ⟨13, _⟩ => ⟨S32x200x128, .f32⟩
  | .local _ .vmem, ⟨14, _⟩ => ⟨S32x200, .f32⟩
  | .local _ .vmem, ⟨15, _⟩ => ⟨S32x200, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c4_i32 : BitVec 32 := 4#32
  let v25 : BitVec 32 := Scalar.addi c0_i32 c4_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v36 : BitVec 32 := Scalar.muli arg11 c256_i32
  v36
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v36 : BitVec 32 := Scalar.muli arg11 c256_i32
  let v37 : BitVec 32 := v36
  let v47 : Index := Scalar.indexCast v37
  let c0_23 : Index := 0#32
  ![v47.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  pads_S1001x128_S1024x128_0230_000 : S1001x128.Pads (![0, 0] : Fin 2 → Nat) ![23, 0] ![0, 0] S1024x128
  h_S_ : 0 < S_.numel
  bitsLt_bf16_f32 : FTy.bits .bf16 < FTy.bits .f32
  shapeCasts_S4096x200_S4096x200x1 : S4096x200.ShapeCasts S4096x200x1
  inb_S32x200x1_S32x200x1_0_0_0 : ∀ a, (![0, 0, 0] : Fin 3 → Nat) a + S32x200x1.size a ≤ S32x200x1.size a
  h_S32x200x1 : 0 < S32x200x1.numel
  shapeCasts_S32x200x1_S32x200x1 : S32x200x1.ShapeCasts S32x200x1
  shapeCasts_S32x200x1_S6400x1 : S32x200x1.ShapeCasts S6400x1
  inb_S1x11_S1x11_0_0 : ∀ a, (![0, 0] : Fin 2 → Nat) a + S1x11.size a ≤ S1x11.size a
  h_S1x11 : 0 < S1x11.numel
  shapeCasts_S1x11_S11 : S1x11.ShapeCasts S11
  inb_S11_S11_0 : ∀ a, (![0] : Fin 1 → Nat) a + S11.size a ≤ S11.size a
  h_S11 : 0 < S11.numel
  inb_S11x128_S11x128_0_0 : ∀ a, (![0, 0] : Fin 2 → Nat) a + S11x128.size a ≤ S11x128.size a
  h_S11x128 : 0 < S11x128.numel
  shapeCasts_S11_S1x11 : S11.ShapeCasts S1x11
  broadcasts_S6400x1_S6400x11 : S6400x1.Broadcasts S6400x11
  broadcasts_S1x11_S6400x11 : S1x11.Broadcasts S6400x11
  broadcasts_S6400x1_S6400x128 : S6400x1.Broadcasts S6400x128
  iota_S1x256_d1_w32 : S1x256.Iotas .tc 32 [1]
  broadcasts_S6400x1_S6400x256 : S6400x1.Broadcasts S6400x256
  broadcasts_S1x256_S6400x256 : S1x256.Broadcasts S6400x256
  natLt_1_32 : 1 < 32
  h_S256x128 : 0 < S256x128.numel
  shapeCasts_S256x128_S256x128 : S256x128.ShapeCasts S256x128
  shapeCasts_S6400x128_S32x200x128 : S6400x128.ShapeCasts S32x200x128
  inb_S32x200x128_S32x200x128_0_0_0 : ∀ a, (![0, 0, 0] : Fin 3 → Nat) a + S32x200x128.size a ≤ S32x200x128.size a
  h_S32x200x128 : 0 < S32x200x128.numel
  inb_S32x200_S32x200_0_0 : ∀ a, (![0, 0] : Fin 2 → Nat) a + S32x200.size a ≤ S32x200.size a
  h_S32x200 : 0 < S32x200.numel
  dot_S6400x11_S11x128_S6400x128_1_0_0_1_n_n_wf : DotDims.WF S6400x11 S11x128 S6400x128 [1] [0] [0] [1] [] []
  dot_S6400x256_S256x128_S6400x128_1_0_0_1_n_n_wf : DotDims.WF S6400x256 S256x128 S6400x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x1.size a ≤ S4096x200x1.size a
  hwx0_0 : ∀ i : grid0.Coords, EltTy.bits .f32 = 32 ∨ (Rect.block (s := S4096x200x1) S32x200x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x1.size a ≤ S4096x200x1.size a
  hwx0_1 : ∀ i : grid0.Coords, EltTy.bits .i32 = 32 ∨ (Rect.block (s := S4096x200x1) S32x200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x1.size a ≤ S4096x200x1.size a
  hwx0_2 : ∀ i : grid0.Coords, EltTy.bits .i32 = 32 ∨ (Rect.block (s := S4096x200x1) S32x200x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x200.size a ≤ S4096x200.size a
  hwx0_3 : ∀ i : grid0.Coords, EltTy.bits .i32 = 32 ∨ (Rect.block (s := S4096x200) S32x200.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x11.size a ≤ S1x11.size a
  hwx0_4 : ∀ i : grid0.Coords, EltTy.bits .f32 = 32 ∨ (Rect.block (s := S1x11) S1x11.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11.size a ≤ S11.size a
  hwx0_5 : ∀ i : grid0.Coords, EltTy.bits .f32 = 32 ∨ (Rect.block (s := S11) S11.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S11x128.size a ≤ S11x128.size a
  hwx0_6 : ∀ i : grid0.Coords, EltTy.bits .f32 = 32 ∨ (Rect.block (s := S11x128) S11x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x200x128.size a ≤ S4096x200x128.size a
  hwx0_8 : ∀ i : grid0.Coords, EltTy.bits .f32 = 32 ∨ (Rect.block (s := S4096x200x128) S32x200x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x200.size a ≤ S4096x200.size a
  hwx0_9 : ∀ i : grid0.Coords, EltTy.bits .f32 = 32 ∨ (Rect.block (s := S4096x200) S32x200.size (cc0_transform_9 i) (hinb0_9 i)).WholeWords (EltTy.packing .f32)

variable [Facts₀]

def dot_S6400x11_S11x128_S6400x128_1_0_0_1_n_n : DotDims S6400x11 S11x128 S6400x128 where
  lhsContracting := [1]
  rhsContracting := [0]
  lhsNonContracting := [0]
  rhsNonContracting := [1]
  lhsBatch := []
  rhsBatch := []
  wf := dot_S6400x11_S11x128_S6400x128_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf

abbrev win0_0 : Pipeline.Window sig grid0 :=
  Pipeline.Window.ofSpec (Memref.whole main_v2) S32x200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x11.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S11.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S11x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S32x200x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S32x200.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x200 : Shape := ⟨2, ![4096, 200]⟩
abbrev S1x11 : Shape := ⟨2, ![1, 11]⟩
abbrev S11 : Shape := ⟨1, ![11]⟩
abbrev S11x128 : Shape := ⟨2, ![11, 128]⟩
abbrev S1001x128 : Shape := ⟨2, ![1001, 128]⟩
abbrev S4096x200x1 : Shape := ⟨3, ![4096, 200, 1]⟩
abbrev S1x1x11 : Shape := ⟨3, ![1, 1, 11]⟩
abbrev S4096x200x11 : Shape := ⟨3, ![4096, 200, 11]⟩
abbrev S4096x200x128 : Shape := ⟨3, ![4096, 200, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S4096x200, .i32⟩
  | .hbm, ⟨3, _⟩ => ⟨S1x11, .f32⟩
  | .hbm, ⟨4, _⟩ => ⟨S11, .f32⟩
  | .hbm, ⟨5, _⟩ => ⟨S11x128, .f32⟩
  | .hbm, ⟨6, _⟩ => ⟨S1001x128, .f32⟩
  | .hbm, ⟨7, _⟩ => ⟨S4096x200x1, .f32⟩
  | .hbm, ⟨8, _⟩ => ⟨S11, .f32⟩
  | .hbm, ⟨9, _⟩ => ⟨S1x1x11, .f32⟩
  | .hbm, ⟨10, _⟩ => ⟨S4096x200x11, .f32⟩
  | .hbm, ⟨11, _⟩ => ⟨S4096x200x11, .f32⟩
  | .hbm, ⟨12, _⟩ => ⟨S4096x200x11, .f32⟩
  | .hbm, ⟨13, _⟩ => ⟨S1x1x11, .f32⟩
  | .hbm, ⟨14, _⟩ => ⟨S4096x200x11, .f32⟩
  | .hbm, ⟨15, _⟩ => ⟨S4096x200x11, .f32⟩
  | .hbm, ⟨16, _⟩ => ⟨S4096x200x11, .f32⟩
  | .hbm, ⟨17, _⟩ => ⟨S4096x200x128, .f32⟩
  | .hbm, ⟨18, _⟩ => ⟨S4096x200, .f32⟩
  | .hbm, ⟨19, _⟩ => ⟨S4096x200x1, .f32⟩
  | .hbm, ⟨20, _⟩ => ⟨S4096x200x128, .f32⟩
  | .hbm, ⟨21, _⟩ => ⟨S4096x200x128, .f32⟩
  | .hbm, ⟨22, _⟩ => ⟨S_, .i32⟩
  | .hbm, ⟨23, _⟩ => ⟨S4096x200, .i32⟩
  | .hbm, ⟨24, _⟩ => ⟨S4096x200, .i1⟩
  | .hbm, ⟨25, _⟩ => ⟨S_, .i32⟩
  | .hbm, ⟨26, _⟩ => ⟨S4096x200, .i32⟩
  | .hbm, ⟨27, _⟩ => ⟨S4096x200, .i32⟩
  | .hbm, ⟨28, _⟩ => ⟨S4096x200, .i32⟩
  | .hbm, ⟨29, _⟩ => ⟨S4096x200x1, .i32⟩
  | .hbm, ⟨30, _⟩ => ⟨S4096x200x128, .f32⟩
  | .hbm, ⟨31, _⟩ => ⟨S4096x200x128, .f32⟩
  | .hbm, ⟨32, _⟩ => ⟨S4096x200, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x200, .f32⟩
  | .hbm, ⟨37, _⟩ => ⟨S4096x200, .f32⟩
  | .hbm, ⟨38, _⟩ => ⟨S_, .f32⟩
  | .hbm, ⟨39, _⟩ => ⟨S4096x200, .f32⟩
  | .hbm, ⟨40, _⟩ => ⟨S4096x200, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S4096x200_S4096x200x1_0_1 : S4096x200.BroadcastsInDim S4096x200x1 (![0, 1] : Fin 2 → Fin S4096x200x1.rank)
  shapeCasts_S1x11_S11 : S1x11.ShapeCasts S11
  bcast_S11_S1x1x11_2 : S11.BroadcastsInDim S1x1x11 (![2] : Fin 1 → Fin S1x1x11.rank)
  bcast_S4096x200x1_S4096x200x11_0_1_2 : S4096x200x1.BroadcastsInDim S4096x200x11 (![0, 1, 2] : Fin 3 → Fin S4096x200x11.rank)
  bcast_S1x1x11_S4096x200x11_0_1_2 : S1x1x11.BroadcastsInDim S4096x200x11 (![0, 1, 2] : Fin 3 → Fin S4096x200x11.rank)
  bcast_S4096x200x1_S4096x200x128_0_1_2 : S4096x200x1.BroadcastsInDim S4096x200x128 (![0, 1, 2] : Fin 3 → Fin S4096x200x128.rank)
  bcast_S_S4096x200 : S_.BroadcastsInDim S4096x200 (![] : Fin 0 → Fin S4096x200.rank)
  dot_S4096x200x11_S11x128_S4096x200x128_2_0_01_1_n_n_wf : DotDims.WF S4096x200x11 S11x128 S4096x200x128 [2] [0] [0, 1] [1] [] []
  gather_S1001x128_S4096x200x1_S4096x200x128_2_0_n_n_0_2_1128_wf : GatherDims.WF S1001x128 S4096x200x1 S4096x200x128 [2] [0] [] [0] [] 2 ![1, 128]

variable [Facts₀]

def dot_S4096x200x11_S11x128_S4096x200x128_2_0_01_1_n_n : DotDims S4096x200x11 S11x128 S4096x200x128 where
  lhsContracting := [2]
  rhsContracting := [0]
  lhsNonContracting := [0, 1]
  rhsNonContracting := [1]
  lhsBatch := []
  rhsBatch := []
  wf := dot_S4096x200x11_S11x128_S4096x200x128_2_0_01_1_n_n_wf
def gather_S1001x128_S4096x200x1_S4096x200x128_2_0_n_n_0_2_1128 : GatherDims S1001x128 S4096x200x1 S4096x200x128 where
  offsetDims := [2]
  collapsedSliceDims := [0]
  operandBatchingDims := []
  startIndicesBatchingDims := []
  startIndexMap := [0]
  indexVectorDim := 2
  sliceSizes := ![1, 128]
  wf := gather_S1001x128_S4096x200x1_S4096x200x128_2_0_n_n_0_2_1128_wf

class Facts : Prop extends Facts₀ where

variable [Facts]
-- ==== Proof.PreRead.lean ====
/-
  The index range, read out of the printed precondition.

  The precondition is a conjunction of seven all-reductions; the last two say that every id word, read signed, is at
  least 0 and at most 1000. A conjunction of one-bit words that is 1 has every conjunct 1; a reduction by "and" over
  all axes that is 1 met a 1 at every index; and a signed comparison word that is 1 is the comparison of the two
  words read as integers.
-/
import proofs.«421624_j3659312136363_3_alg».proof.Pre_finite_inputs
import proofs.«421624_j3659312136363_3_alg».proof.Proof.Gen.Pre_finite_inputs
import Idealize.ShloMosaic.Lib.ReduceAll
import Idealize.ShloMosaic.Lib.Affine
import Idealize.ShloMosaic.Lib.ValueIdx

noncomputable section

namespace Cert.PreRead

open Idealize.ShloMosaic Cert.Pre_finite_inputs

instance : Subsingleton S_.Idx := ⟨fun a b => funext fun d => d.elim0⟩

variable {F : FTy → Type} [FloatOps F]

/-- Under the precondition every id word lies in [0, 1000] as a signed integer. -/
theorem ids_in_range (a0 : FVec F S4096x200 .f32) (a1 a2 : IVec S4096x200 32) (a3 : FVec F S1x11 .f32)
    (a4 : FVec F S11 .f32) (a5 : FVec F S11x128 .f32) (a6 : FVec F S1001x128 .f32)
    (h : fn (F := F) a0 a1 a2 a3 a4 a5 a6 = fun _ => 1#1) (i : S4096x200.Idx) :
    0 ≤ (a1 i).toInt ∧ (a1 i).toInt ≤ 1000 := by
  have h0 := congrFun h ValueIdx.ix0
  dsimp only [fn, fn_part1] at h0
  obtain ⟨h1, hle⟩ := IntOp.andi_eq_one.mp h0
  obtain ⟨_, hge⟩ := IntOp.andi_eq_one.mp h1
  have hge' := Host.reduce_andi_all _ _ _ _ _ hge i
  have hle' := Host.reduce_andi_all _ _ _ _ _ hle i
  exact ⟨IntOp.cmpi_sge.mp hge', IntOp.cmpi_sle.mp hle'⟩

end Cert.PreRead

end
-- ==== Proof.Spec.lean ====
/-
  What both programs compute, as one function of the seven argument arrays over the extended reals, and the two
  facts about tables that join them.

  For token (b, l) and lane e the first result is
      (Σ_h tanh(value[b,l] · W1[0,h] + b1[h]) · W2[h,e]) · mask[b,l]  +  table[row(id[b,l]), e],
  where row(v) is the id word read signed and clamped into the table's 1001 rows, and the second result is the id
  word, read as a real, clipped to [0, 1].

  The table row is reached in two ways. One program takes row(v) directly (a gather of whole rows). The other
  multiplies a one-hot row — lane n is 1 exactly when the id word equals n — into the table padded with zero rows to
  1024, 256 lanes at a time, and adds the four partial products. On the extended reals 0 · x = 0 and 1 · x = x for
  every x, so each partial product is either the wanted row entry (for the one block of 256 that holds the id) or 0,
  and the four add up to the row entry with no assumption of finiteness. What is needed is that the id lies in
  [0, 1000]: a negative id or one past the table names different rows in the two programs.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Spec

open Idealize.ShloMosaic Idealize.ShloMosaic.ValueIdx

abbrev SBL : Shape := ⟨2, ![4096, 200]⟩
abbrev SBLE : Shape := ⟨3, ![4096, 200, 128]⟩
abbrev SBL1 : Shape := ⟨3, ![4096, 200, 1]⟩
abbrev SW1 : Shape := ⟨2, ![1, 11]⟩
abbrev SB1 : Shape := ⟨1, ![11]⟩
abbrev SW2 : Shape := ⟨2, ![11, 128]⟩
abbrev STbl : Shape := ⟨2, ![1001, 128]⟩

/-! ## The target -/

/-- The table row an id word names: the word read signed, clamped into rows 0 … 1000. -/
def rowOf (v : BitVec 32) : Fin 1001 := ⟨min v.toInt.toNat 1000, by omega⟩

/-- On ids in range the row is the word's own value. -/
theorem rowOf_val (v : BitVec 32) (h0 : 0 ≤ v.toInt) (h1 : v.toInt ≤ 1000) : (rowOf v).val = v.toNat := by
  have h := BitVec.toInt_eq_toNat_cond v
  have hlt := v.isLt
  show min v.toInt.toNat 1000 = v.toNat
  split at h <;> omega

/-- A scalar token value through the two-layer map: Σ_h tanh(x · W1[0,h] + b1[h]) · W2[h,e]. -/
def mlp (value : FVec Ideal SBL .f32) (W1 : FVec Ideal SW1 .f32) (b1 : FVec Ideal SB1 .f32) (W2 : FVec Ideal SW2 .f32)
    (b : Fin 4096) (l : Fin 200) (e : Fin 128) : EReal :=
  ∑ h : Fin 11, Ideal.tanh (value (ix2 b l) * W1 (ix2 (0 : Fin 1) h) + b1 (ix1 h)) * W2 (ix2 h e)

/-- The first result: the mapped value, masked, plus the id's table row. -/
def sumEmb (value : FVec Ideal SBL .f32) (ids mask : IVec SBL 32) (W1 : FVec Ideal SW1 .f32) (b1 : FVec Ideal SB1 .f32)
    (W2 : FVec Ideal SW2 .f32) (tbl : FVec Ideal STbl .f32) : FVec Ideal SBLE .f32 := fun i =>
  mlp value W1 b1 W2 (i 0) (i 1) (i 2) * (((mask (ix2 (i 0) (i 1))).toInt : ℝ) : EReal)
    + tbl (ix2 (rowOf (ids (ix2 (i 0) (i 1)))) (i 2))

/-- The second result: the id as a real, clipped to [0, 1]. -/
def padMask (ids : IVec SBL 32) : FVec Ideal SBL .f32 := fun i =>
  min (Ideal.ofBits .f32 0x3F800000#32) (max (Ideal.ofBits .f32 0x00000000#32) (((ids i).toInt : ℝ) : EReal))

/-! ## A gather of whole rows, read at an index -/

/-- The dimension numbers of taking whole rows of a [1001, 128] table by a [4096, 200, 1] array of row numbers. -/
abbrev rowDims (wf : GatherDims.WF STbl SBL1 SBLE [2] [0] [] [0] [] 2 ![1, 128]) : GatherDims STbl SBL1 SBLE where
  offsetDims := [2]
  collapsedSliceDims := [0]
  operandBatchingDims := []
  startIndicesBatchingDims := []
  startIndexMap := [0]
  indexVectorDim := 2
  sliceSizes := ![1, 128]
  wf := wf

/-- On the table's row axis the gather reads the start index at (b, l, 0), signed and clamped so that one row fits. -/
theorem rowGather_axis0 {w : Nat} (wf : GatherDims.WF STbl SBL1 SBLE [2] [0] [] [0] [] 2 ![1, 128])
    (idx : IVec SBL1 w) (b : Fin 4096) (l : Fin 200) (e : Fin 128) :
    ((rowDims wf).operandIdx (ix3 b l e) idx (0 : Fin 2)).val = min (idx (ix3 b l (0 : Fin 1))).toInt.toNat 1000 := by
  show (rowDims wf).start (ix3 b l e) idx 0 + (rowDims wf).batchCoord (ix3 b l e) 0 + (rowDims wf).offCoord (ix3 b l e) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims wf).startIndexMap from List.mem_singleton.mpr rfl)]
  have hsi : (rowDims wf).siIdx (ix3 b l e) ⟨List.idxOf (0 : Fin 2) (rowDims wf).startIndexMap,
      List.idxOf_lt_length_iff.2 (List.mem_singleton.mpr rfl)⟩ = ix3 b l (0 : Fin 1) := by
    funext c; refine Fin.ext ?_
    match c with
    | ⟨0, _⟩ => rfl
    | ⟨1, _⟩ => rfl
    | ⟨2, _⟩ => rfl
  rw [hsi]
  rfl

/-- On the table's lane axis the gather reads the result's own lane. -/
theorem rowGather_axis1 {w : Nat} (wf : GatherDims.WF STbl SBL1 SBLE [2] [0] [] [0] [] 2 ![1, 128])
    (idx : IVec SBL1 w) (b : Fin 4096) (l : Fin 200) (e : Fin 128) :
    ((rowDims wf).operandIdx (ix3 b l e) idx (1 : Fin 2)).val = e.val := by
  show (rowDims wf).start (ix3 b l e) idx 1 + (rowDims wf).batchCoord (ix3 b l e) 1 + (rowDims wf).offCoord (ix3 b l e) 1 = _
  rw [GatherDims.batchCoord_eq_zero _ _ _ List.not_mem_nil, Nat.add_zero]
  have h1 : (1 : Fin 2) ∉ (rowDims wf).startIndexMap := by
    show (1 : Fin 2) ∉ ([0] : List (Fin 2)); decide
  have hk : (1 : Fin 2) ∈ (rowDims wf).sKept :=
    (GatherDims.mem_sKept _ _).mpr ⟨by show (1 : Fin 2) ∉ ([0] : List (Fin 2)); decide, List.not_mem_nil⟩
  unfold GatherDims.start
  rw [dif_neg h1, Nat.zero_add]
  unfold GatherDims.offCoord
  rw [dif_pos hk]
  rfl

/-- Entry (b, l, e) of the gather is the table at (row, e), the row being the start index at (b, l, 0) read signed
    and clamped so that one row fits: the row the id at (b, l) names. -/
theorem rowGather_apply {α : Type} (wf : GatherDims.WF STbl SBL1 SBLE [2] [0] [] [0] [] 2 ![1, 128])
    (x : STbl.Idx → α) (idx : IVec SBL1 32) (b : Fin 4096) (l : Fin 200) (e : Fin 128) :
    Host.gather (rowDims wf) x idx (ix3 b l e) = x (ix2 (rowOf (idx (ix3 b l (0 : Fin 1)))) e) := by
  unfold Host.gather
  congr 1
  funext a
  refine Fin.ext ?_
  match a with
  | ⟨0, _⟩ => exact rowGather_axis0 wf idx b l e
  | ⟨1, _⟩ => exact rowGather_axis1 wf idx b l e

/-! ## The one-hot product, 256 lanes at a time -/

/-- One lane of the one-hot row: the test "the id word is w", widened to a word and read as a real. -/
def hot (v w : BitVec 32) : EReal := ((((IntOp.cmpi .eq v w).setWidth 32).toInt : ℝ) : EReal)

theorem hot_self (v : BitVec 32) : hot v v = 1 := by
  have h : IntOp.cmpi .eq v v = 1#1 := StableHlo.Predicate.cmpi_eq_iff.mpr rfl
  unfold hot; rw [h]
  have : ((1#1 : BitVec 1).setWidth 32).toInt = 1 := by decide
  rw [this]; norm_num

theorem hot_ne (v w : BitVec 32) (h : v ≠ w) : hot v w = 0 := by
  have h' : IntOp.cmpi .eq v w = 0#1 := eq_zero_of_ne_one (fun hc => h (StableHlo.Predicate.cmpi_eq_iff.mp hc))
  unfold hot; rw [h']
  have : ((0#1 : BitVec 1).setWidth 32).toInt = 0 := by decide
  rw [this]; norm_num

/-- Block c of the one-hot row times block c of a table of 1024 entries: the entry the id names when the id lies in
    that block of 256, else nothing. -/
theorem chunk_sum (v : BitVec 32) (hv : v.toNat < 1024) (P : Fin 1024 → EReal) (c : Fin 4) :
    ∑ k : Fin 256, hot v (BitVec.ofNat 32 (256 * c.val + k.val)) * P ⟨256 * c.val + k.val, by omega⟩
      = if v.toNat / 256 = c.val then P ⟨v.toNat, hv⟩ else 0 := by
  have hne : ∀ k : Fin 256, v.toNat ≠ 256 * c.val + k.val → hot v (BitVec.ofNat 32 (256 * c.val + k.val)) = 0 := by
    intro k hk
    refine hot_ne _ _ (fun he => hk ?_)
    have := congrArg BitVec.toNat he
    rw [BitVec.toNat_ofNat, Nat.mod_eq_of_lt (by omega)] at this
    exact this
  by_cases hc : v.toNat / 256 = c.val
  · rw [if_pos hc]
    have hk0 : v.toNat % 256 < 256 := Nat.mod_lt _ (by decide)
    have hv' : v.toNat = 256 * c.val + v.toNat % 256 := by omega
    rw [Finset.sum_eq_single (⟨v.toNat % 256, hk0⟩ : Fin 256)]
    · have hw : BitVec.ofNat 32 (256 * c.val + v.toNat % 256) = v := by
        rw [← hv']; exact BitVec.eq_of_toNat_eq (by rw [BitVec.toNat_ofNat]; exact Nat.mod_eq_of_lt v.isLt)
      show hot v (BitVec.ofNat 32 (256 * c.val + v.toNat % 256)) * P ⟨256 * c.val + v.toNat % 256, _⟩ = _
      rw [hw, hot_self, one_mul]
      exact congrArg P (Fin.ext hv'.symm)
    · intro k _ hk
      rw [hne k (fun he => hk (Fin.ext (by show k.val = v.toNat % 256; omega))), zero_mul]
    · intro h; exact absurd (Finset.mem_univ _) h
  · rw [if_neg hc]
    refine Finset.sum_eq_zero fun k _ => ?_
    rw [hne k (fun he => hc (by omega)), zero_mul]

/-- Four partial products added one after the other onto a start value, when exactly the q-th is x and the rest
    are 0. -/
theorem fold4 (a x : EReal) (M : Fin 4 → EReal) (q : ℕ) (hq : q < 4)
    (hM : ∀ c : Fin 4, M c = if q = c.val then x else 0) : a + M 0 + M 1 + M 2 + M 3 = a + x := by
  rw [hM 0, hM 1, hM 2, hM 3]
  interval_cases q <;> simp

end Cert.Spec

end
-- ==== Proof.RefValue.lean ====
/-
  The reference's two results are the target functions.

  Read at token (b, l) and lane e, the reference's first result is a dot product over the 11 hidden units of
  tanh(value[b,l] · W1[0,h] + b1[h]) with W2[h,e], times the mask word read as a real, plus a gathered table entry.
  The gather's row number is the id word passed through "if negative, add 1001": for an id that is not negative this
  leaves the id, and the gather then clamps it into the table — the row the target names. The second result is the
  clip of the id read as a real, operation for operation the target's.
-/
import proofs.«421624_j3659312136363_3_alg».proof.Proof.Gen.ReferenceIdeal.Read
import proofs.«421624_j3659312136363_3_alg».proof.Proof.Spec
import Idealize.ShloMosaic.Lib.Affine

noncomputable section

namespace Cert.ReferenceIdeal.RefValue

open Cert.ReferenceIdeal Cert.ReferenceIdeal.Read Idealize.ShloMosaic Idealize.ShloMosaic.ValueIdx Cert.Spec

/-! ## Where each stage reads its operands, in coordinates -/

theorem value_at (b : Fin 4096) (l : Fin 200) (e : Fin 128) (k : Fin 11) :
    idx_main_v0 (idx_main_v3 (lidx_main_v10 (ix3 b l e) k)) = ix2 b l :=
  funext fun a => Fin.ext (by match a with | ⟨0, _⟩ => rfl | ⟨1, _⟩ => rfl)

theorem w1_at (b : Fin 4096) (l : Fin 200) (e : Fin 128) (k : Fin 11) :
    idx_main_v1 (idx_main_v2 (idx_main_v4 (lidx_main_v10 (ix3 b l e) k))) = ix2 (0 : Fin 1) k :=
  funext fun a => Fin.ext (by
    match a with
    | ⟨0, _⟩ => rfl
    | ⟨1, _⟩ => exact Nat.mod_eq_of_lt k.isLt)

theorem b1_at (b : Fin 4096) (l : Fin 200) (e : Fin 128) (k : Fin 11) :
    idx_main_v6 (idx_main_v7 (lidx_main_v10 (ix3 b l e) k)) = ix1 k :=
  funext fun a => Fin.ext (by match a with | ⟨0, _⟩ => rfl)

theorem w2_at (b : Fin 4096) (l : Fin 200) (e : Fin 128) (k : Fin 11) :
    ridx_main_v10 (ix3 b l e) k = ix2 k e :=
  funext fun a => Fin.ext (by match a with | ⟨0, _⟩ => rfl | ⟨1, _⟩ => rfl)

theorem mask_at (b : Fin 4096) (l : Fin 200) (e : Fin 128) :
    idx_main_v12 (idx_main_v13 (ix3 b l e)) = ix2 b l :=
  funext fun a => Fin.ext (by match a with | ⟨0, _⟩ => rfl | ⟨1, _⟩ => rfl)

theorem id_at (b : Fin 4096) (l : Fin 200) : idx_main_v20 (ix3 b l (0 : Fin 1)) = ix2 b l :=
  funext fun a => Fin.ext (by match a with | ⟨0, _⟩ => rfl | ⟨1, _⟩ => rfl)

/-! ## The row number -/

/-- An id that is not negative passes the "if negative, add the table's length" step unchanged. -/
theorem wrapped_eq (x1 : IVec S4096x200 32) (j : S4096x200.Idx) (h0 : 0 ≤ (x1 j).toInt) :
    val_main_v19 (F := Ideal) x1 j = x1 j := by
  rw [val_main_v19_apply]
  have hc : val_main_v16 (F := Ideal) x1 j = 0#1 := by
    refine eq_zero_of_ne_one (fun h => ?_)
    rw [val_main_v16_apply] at h
    have hlt := IntOp.cmpi_slt.mp h
    rw [val_main_v15_apply, val_main_c_apply] at hlt
    have hz : (0#32 : BitVec 32).toInt = 0 := by decide
    rw [hz] at hlt
    omega
  rw [hc, select_zero]

/-- The gathered entry at (b, l, e): the table at the id's row, lane e. -/
theorem gathered_eq (x1 : IVec S4096x200 32) (x6 : FVec Ideal S1001x128 .f32) (b : Fin 4096) (l : Fin 200) (e : Fin 128)
    (h0 : 0 ≤ (x1 (ix2 b l)).toInt) :
    val_main_v21 (F := Ideal) x1 x6 (ix3 b l e) = x6 (ix2 (rowOf (x1 (ix2 b l))) e) := by
  unfold val_main_v21
  have hd : gather_S1001x128_S4096x200x1_S4096x200x128_2_0_n_n_0_2_1128 = rowDims _ := rfl
  rw [hd, rowGather_apply, val_main_v20_apply, id_at, wrapped_eq x1 _ h0]

/-! ## The two results -/

/-- The first result is the target's: the mapped value, masked, plus the id's table row. -/
theorem sum_eq (x0 : FVec Ideal S4096x200 .f32) (x1 x2 : IVec S4096x200 32) (x3 : FVec Ideal S1x11 .f32)
    (x4 : FVec Ideal S11 .f32) (x5 : FVec Ideal S11x128 .f32) (x6 : FVec Ideal S1001x128 .f32)
    (h0 : ∀ j, 0 ≤ (x1 j).toInt) :
    val_main_v22 (F := Ideal) x0 x1 x2 x3 x4 x5 x6 = sumEmb x0 x1 x2 x3 x4 x5 x6 := by
  funext i
  obtain ⟨b, l, e, rfl⟩ : ∃ (b : Fin 4096) (l : Fin 200) (e : Fin 128), i = ix3 b l e := ⟨i 0, i 1, i 2, eq_ix3 i⟩
  rw [val_main_v22_apply, val_main_v14_apply, val_main_v10_apply, val_main_v13_apply, val_main_v12_apply,
    val_main_v11_apply, mask_at, gathered_eq x1 x6 b l e (h0 _)]
  simp only [val_main_v9_apply, val_main_v8_apply, val_main_v5_apply, val_main_v3_apply, val_main_v0_apply,
    val_main_v4_apply, val_main_v2_apply, val_main_v1_apply, val_main_v7_apply, val_main_v6_apply,
    value_at, w1_at, b1_at, w2_at, Ideal.mulf_def, Ideal.addf_def, Ideal.hostUnary_tanh_def]
  rfl

/-- The second result is the target's clip. -/
theorem clip_eq (x1 : IVec S4096x200 32) : val_main_v24 (F := Ideal) x1 = padMask x1 := by
  funext i
  rfl

end Cert.ReferenceIdeal.RefValue

end
-- ==== Proof.KernelPoint.lean ====
/-
  What one grid point leaves in its two output blocks, as functions of the blocks it loaded.

  The first output block holds one stored piece: the rows un-flattened of the loop's carried value after its four
  trips, the carried value starting at the masked value map of the block and each trip adding one block of the one-hot
  product, its table rows loaded at row offset 256·k. The second output block holds the clip of the block of ids.
-/
import proofs.«421624_j3659312136363_3_alg».proof.Proof.Gen.KernelIdeal.Frame
import Idealize.ShloMosaic.Lib.WholeRead

set_option maxRecDepth 16384

noncomputable section

namespace Cert.KernelIdeal.Point

open Cert.KernelIdeal Cert.KernelIdeal.Gen Idealize.ShloMosaic Idealize.ShloMosaic.TcCoe Idealize.ShloMosaic.Tactic
open Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A load of the whole block through a whole staging memref held at the raw contents of `X` reads `X`. -/
theorem loadWhole {s : Shape} {e : EltTy} (m : Memref sig .tc .vmem s e) (h : m.IsWhole) (X : Vec F s e)
    {off : Fin s.rank → Nat} (hz : off = fun _ => 0) (inb : ∀ a, off a + s.size a ≤ s.size a) :
    View.readAt (Elt F) m.view (Rect.unit off s.size inb).toLoadRect (h.unread X) = X := by
  rw [View.readAt_eq_ld, h.read_unread, View.ld_unit_zero hz]

/-- The loop runs four trips. -/
theorem trips_eq : Scf.trips (0#32) (Scalar.addi 0#32 4#32) 1#32 = 4 := by decide

/-- The table rows trip k loads: 256 rows of the staged table from row offset 256·k. -/
abbrev tableRows (arg8 : Memref sig .tc .vmem S1024x128 .bf16) (X : BufTy.Contents (Elt F) arg8.view.ty)
    (k : Fin k0_t1_loop.trips) : Vec F S256x128 .bf16 :=
  View.readAt (Elt F) arg8.view (Rect.unit (s := S1024x128) (k0_off1 k) S256x128.size (k0_off1_inb k)).toLoadRect X

/-- One trip's result is the trip's payload of the carried value and the loaded table rows. -/
theorem tripR_eq (𝒱 : Variants) (c : Dev nD) (bd : Option 𝒱.V) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole)
    (v3 : Vec F S32x200x1 .i32) (X : BufTy.Contents (Elt F) arg8.view.ty) (k : Fin k0_t1_loop.trips) (acc : FVec F S6400x128 .f32) :
    tripR_k0_t1 𝒱 c bd i arg1 harg1 arg2 harg2 arg3 harg3 arg4 harg4 arg5 harg5 arg6 harg6 arg7 harg7 arg8 harg8 arg9 harg9 arg10 harg10 v3 X k acc = k0_pay3 v3 k acc (tableRows arg8 X k) := by
  unfold tripR_k0_t1 trip_k0_t1
  rfl

/-- The carried value after the four trips, trip by trip. -/
theorem st_four (𝒱 : Variants) (c : Dev nD) (bd : Option 𝒱.V) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole)
    (v3 : Vec F S32x200x1 .i32) (X : BufTy.Contents (Elt F) arg8.view.ty) (init : FVec F S6400x128 .f32)
    (h0 : 0 < k0_t1_loop.trips) (h1 : 1 < k0_t1_loop.trips) (h2 : 2 < k0_t1_loop.trips) (h3 : 3 < k0_t1_loop.trips) :
    st_k0_t1 𝒱 c bd i arg1 harg1 arg2 harg2 arg3 harg3 arg4 harg4 arg5 harg5 arg6 harg6 arg7 harg7 arg8 harg8 arg9 harg9 arg10 harg10 v3 X init 4
      = k0_pay3 v3 ⟨3, h3⟩ (k0_pay3 v3 ⟨2, h2⟩ (k0_pay3 v3 ⟨1, h1⟩ (k0_pay3 v3 ⟨0, h0⟩ init (tableRows arg8 X ⟨0, h0⟩))
          (tableRows arg8 X ⟨1, h1⟩)) (tableRows arg8 X ⟨2, h2⟩)) (tableRows arg8 X ⟨3, h3⟩) := by
  have e4 := st_k0_t1_succ (F := F) 𝒱 c bd i arg1 harg1 arg2 harg2 arg3 harg3 arg4 harg4 arg5 harg5 arg6 harg6 arg7 harg7 arg8 harg8 arg9 harg9 arg10 harg10 v3 X init ⟨3, h3⟩
  have e3 := st_k0_t1_succ (F := F) 𝒱 c bd i arg1 harg1 arg2 harg2 arg3 harg3 arg4 harg4 arg5 harg5 arg6 harg6 arg7 harg7 arg8 harg8 arg9 harg9 arg10 harg10 v3 X init ⟨2, h2⟩
  have e2 := st_k0_t1_succ (F := F) 𝒱 c bd i arg1 harg1 arg2 harg2 arg3 harg3 arg4 harg4 arg5 harg5 arg6 harg6 arg7 harg7 arg8 harg8 arg9 harg9 arg10 harg10 v3 X init ⟨1, h1⟩
  have e1 := st_k0_t1_succ (F := F) 𝒱 c bd i arg1 harg1 arg2 harg2 arg3 harg3 arg4 harg4 arg5 harg5 arg6 harg6 arg7 harg7 arg8 harg8 arg9 harg9 arg10 harg10 v3 X init ⟨0, h0⟩
  have e0 := st_k0_t1_zero (F := F) 𝒱 c bd i arg1 harg1 arg2 harg2 arg3 harg3 arg4 harg4 arg5 harg5 arg6 harg6 arg7 harg7 arg8 harg8 arg9 harg9 arg10 harg10 v3 X init
  rw [tripR_eq] at e1 e2 e3 e4
  exact e4.trans (by rw [e3, e2, e1, e0])

/-- The first output block after the body: its one stored piece, over the loaded blocks. -/
theorem out8_piece (c : Dev nD) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole) (x0 : Vec F S32x200x1 .f32) (x1 : Vec F S32x200x1 .i32) (x2 : Vec F S32x200x1 .i32) (x3 : Vec F S32x200 .i32) (x4 : Vec F S1x11 .f32) (x5 : Vec F S11 .f32) (x6 : Vec F S11x128 .f32) (x7 : Vec F S1024x128 .bf16) :
    out0_A_8 c i arg1 harg1 arg2 harg2 arg3 harg3 arg4 harg4 arg5 harg5 arg6 harg6 arg7 harg7 arg8 harg8 arg9 harg9 arg10 harg10 x0 x1 x2 x3 x4 x5 x6 x7
      = k0_pay4 (st_k0_t1 Variants.none c none i arg1 harg1 arg2 harg2 arg3 harg3 arg4 harg4 arg5 harg5 arg6 harg6 arg7 harg7 arg8 harg8 arg9 harg9 arg10 harg10 x1 (harg8.unread x7) (k0_pay2 x0 x2 x4 x5 x6) 4) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  rw [View.canon_unit_zero hz3, trips_eq]
  rw [loadWhole arg2 harg2 x1 hz3, loadWhole arg1 harg1 x0 hz3, loadWhole arg3 harg3 x2 hz3, loadWhole arg5 harg5 x4 hz2,
    loadWhole arg6 harg6 x5 hz1, loadWhole arg7 harg7 x6 hz2]

/-- The second output block after the body: the clip of the loaded ids. -/
theorem out9_piece (c : Dev nD) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole) (x0 : Vec F S32x200x1 .f32) (x1 : Vec F S32x200x1 .i32) (x2 : Vec F S32x200x1 .i32) (x3 : Vec F S32x200 .i32) (x4 : Vec F S1x11 .f32) (x5 : Vec F S11 .f32) (x6 : Vec F S11x128 .f32) (x7 : Vec F S1024x128 .bf16) :
    out0_A_9 c i arg1 harg1 arg2 harg2 arg3 harg3 arg4 harg4 arg5 harg5 arg6 harg6 arg7 harg7 arg8 harg8 arg9 harg9 arg10 harg10 x0 x1 x2 x3 x4 x5 x6 x7
      = k0_pay1 (k0_pay5 x3) (Scalar.ofBits .f32 0x3F800000#32) (k0_pay6 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  rw [View.canon_unit_zero hz2]
  sl_unfold_run_names
  rw [loadWhole arg4 harg4 x3 hz2]

end Cert.KernelIdeal.Point

end
-- ==== Proof.KernelDots.lean ====
/-
  The kernel's two matrix products at the exact values: into a zero accumulator, entry (row, e) is the plain sum over
  the contracted index of the operands' products — 11 hidden units for the value map, 256 table rows for one block of
  the one-hot product. The contraction index set of each is re-indexed by its one coordinate.
-/
import proofs.«421624_j3659312136363_3_alg».proof.Proof.Gen.KernelIdeal.Skeleton
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ### The [6400, 11] × [11, 128] product -/

theorem lhsH_0 (i : S6400x128.Idx) (q : dot_S6400x11_S11x128_S6400x128_1_0_0_1_n_n.contr.Idx) : (dot_S6400x11_S11x128_S6400x128_1_0_0_1_n_n.lhsIdx i q 0).val = (i 0).val := by
  unfold DotDims.lhsIdx
  rw [dif_neg (show ¬(0 : Fin S6400x11.rank) ∈ dot_S6400x11_S11x128_S6400x128_1_0_0_1_n_n.lhsBatch by decide), dif_pos (show (0 : Fin S6400x11.rank) ∈ dot_S6400x11_S11x128_S6400x128_1_0_0_1_n_n.lhsNonContracting by decide)]
  rfl
theorem lhsH_1 (i : S6400x128.Idx) (q : dot_S6400x11_S11x128_S6400x128_1_0_0_1_n_n.contr.Idx) : (dot_S6400x11_S11x128_S6400x128_1_0_0_1_n_n.lhsIdx i q 1).val = (q ⟨0, by decide⟩).val :=
  dot_S6400x11_S11x128_S6400x128_1_0_0_1_n_n.lhsIdx_val_of_single rfl i q
theorem rhsH_0 (i : S6400x128.Idx) (q : dot_S6400x11_S11x128_S6400x128_1_0_0_1_n_n.contr.Idx) : (dot_S6400x11_S11x128_S6400x128_1_0_0_1_n_n.rhsIdx i q 0).val = (q ⟨0, by decide⟩).val :=
  dot_S6400x11_S11x128_S6400x128_1_0_0_1_n_n.rhsIdx_val_of_single rfl i q
theorem rhsH_1 (i : S6400x128.Idx) (q : dot_S6400x11_S11x128_S6400x128_1_0_0_1_n_n.contr.Idx) : (dot_S6400x11_S11x128_S6400x128_1_0_0_1_n_n.rhsIdx i q 1).val = (i 1).val := by
  unfold DotDims.rhsIdx
  rw [dif_neg (show ¬(1 : Fin S11x128.rank) ∈ dot_S6400x11_S11x128_S6400x128_1_0_0_1_n_n.rhsBatch by decide), dif_pos (show (1 : Fin S11x128.rank) ∈ dot_S6400x11_S11x128_S6400x128_1_0_0_1_n_n.rhsNonContracting by decide)]
  rfl

/-- Entry (row, e) of the product into a zero accumulator is Σ_k lhs[row, k] · rhs[k, e]. -/
theorem matmulH_apply {φ₁ φ₂ : FTy} (lhs : FVec Ideal S6400x11 φ₁) (rhs : FVec Ideal S11x128 φ₂) (row : Fin 6400) (e : Fin 128) :
    matmul dot_S6400x11_S11x128_S6400x128_1_0_0_1_n_n none lhs rhs (constant S6400x128 .f32 0x00000000#32) (ix2 row e)
      = ∑ k : Fin 11, lhs (ix2 row k) * rhs (ix2 k e) := by
  simp only [matmul]
  rw [Ideal.matmul_constant_zero_apply, ← Equiv.sum_comp (contrEquiv1 dot_S6400x11_S11x128_S6400x128_1_0_0_1_n_n 11 rfl rfl).symm]
  refine Finset.sum_congr rfl fun k _ => ?_
  have hk := contrEquiv1_symm_val dot_S6400x11_S11x128_S6400x128_1_0_0_1_n_n 11 rfl rfl k
  have el : dot_S6400x11_S11x128_S6400x128_1_0_0_1_n_n.lhsIdx (ix2 row e) ((contrEquiv1 dot_S6400x11_S11x128_S6400x128_1_0_0_1_n_n 11 rfl rfl).symm k) = ix2 row k := funext fun a => Fin.ext (by
    match a with
    | ⟨0, _⟩ => exact lhsH_0 _ _
    | ⟨1, _⟩ => exact (lhsH_1 _ _).trans hk)
  have er : dot_S6400x11_S11x128_S6400x128_1_0_0_1_n_n.rhsIdx (ix2 row e) ((contrEquiv1 dot_S6400x11_S11x128_S6400x128_1_0_0_1_n_n 11 rfl rfl).symm k) = ix2 k e := funext fun a => Fin.ext (by
    match a with
    | ⟨0, _⟩ => exact (rhsH_0 _ _).trans hk
    | ⟨1, _⟩ => exact rhsH_1 _ _)
  rw [el, er]

/-! ### The [6400, 256] × [256, 128] product -/

theorem lhsT_0 (i : S6400x128.Idx) (q : dot_S6400x256_S256x128_S6400x128_1_0_0_1_n_n.contr.Idx) : (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhsT_1 (i : S6400x128.Idx) (q : dot_S6400x256_S256x128_S6400x128_1_0_0_1_n_n.contr.Idx) : (dot_S6400x256_S256x128_S6400x128_1_0_0_1_n_n.lhsIdx i q 1).val = (q ⟨0, by decide⟩).val :=
  dot_S6400x256_S256x128_S6400x128_1_0_0_1_n_n.lhsIdx_val_of_single rfl i q
theorem rhsT_0 (i : S6400x128.Idx) (q : dot_S6400x256_S256x128_S6400x128_1_0_0_1_n_n.contr.Idx) : (dot_S6400x256_S256x128_S6400x128_1_0_0_1_n_n.rhsIdx i q 0).val = (q ⟨0, by decide⟩).val :=
  dot_S6400x256_S256x128_S6400x128_1_0_0_1_n_n.rhsIdx_val_of_single rfl i q
theorem rhsT_1 (i : S6400x128.Idx) (q : dot_S6400x256_S256x128_S6400x128_1_0_0_1_n_n.contr.Idx) : (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- Entry (row, e) of the product into a zero accumulator is Σ_k lhs[row, k] · rhs[k, e]. -/
theorem matmulT_apply {φ₁ φ₂ : FTy} (lhs : FVec Ideal S6400x256 φ₁) (rhs : FVec Ideal S256x128 φ₂) (row : Fin 6400) (e : Fin 128) :
    matmul dot_S6400x256_S256x128_S6400x128_1_0_0_1_n_n none lhs rhs (constant S6400x128 .f32 0x00000000#32) (ix2 row e)
      = ∑ k : Fin 256, lhs (ix2 row k) * rhs (ix2 k e) := by
  simp only [matmul]
  rw [Ideal.matmul_constant_zero_apply, ← Equiv.sum_comp (contrEquiv1 dot_S6400x256_S256x128_S6400x128_1_0_0_1_n_n 256 rfl rfl).symm]
  refine Finset.sum_congr rfl fun k _ => ?_
  have hk := contrEquiv1_symm_val dot_S6400x256_S256x128_S6400x128_1_0_0_1_n_n 256 rfl rfl k
  have el : dot_S6400x256_S256x128_S6400x128_1_0_0_1_n_n.lhsIdx (ix2 row e) ((contrEquiv1 dot_S6400x256_S256x128_S6400x128_1_0_0_1_n_n 256 rfl rfl).symm k) = ix2 row k := funext fun a => Fin.ext (by
    match a with
    | ⟨0, _⟩ => exact lhsT_0 _ _
    | ⟨1, _⟩ => exact (lhsT_1 _ _).trans hk)
  have er : dot_S6400x256_S256x128_S6400x128_1_0_0_1_n_n.rhsIdx (ix2 row e) ((contrEquiv1 dot_S6400x256_S256x128_S6400x128_1_0_0_1_n_n 256 rfl rfl).symm k) = ix2 k e := funext fun a => Fin.ext (by
    match a with
    | ⟨0, _⟩ => exact (rhsT_0 _ _).trans hk
    | ⟨1, _⟩ => exact rhsT_1 _ _)
  rw [el, er]

end Cert.KernelIdeal.Dots

end
-- ==== Proof.LibLayout.lean ====
/-
  Four layout operations read at an index given by coordinates: a reshape that merges the two leading axes of a
  rank-3 array into one (row r·b + l of the result is position (r, l) of the operand), the reshape back, a reshape
  that appends a unit axis, and a column [a, 1] broadcast along the rows of an [a, b] rectangle. Stated at any extents.
-/
import Idealize.ShloMosaic.Lib.ValueIdx
import Idealize.ShloMosaic.Lib.Pipeline.Value

namespace Cert.LibLayout

open Idealize.ShloMosaic Idealize.ShloMosaic.ValueIdx

variable {α : Type}

/-- An [a, b, c] array reshaped to [n, c] with n = a·b reads, at (row, e) with row = r·b + l, the operand at (r, l, e):
    both positions have the same row-major number. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (e : Fin c) (row : Fin n)
    (hrow : row.val = r.val * b + l.val) :
    shapeCast ⟨2, ![n, c]⟩ x h (ix2 row e) = x (ix3 r l e) :=
  shapeCast_apply x h _ _ (by
    rw [Shape.rowMajor_val_three, Shape.rowMajor_val_two]
    show (r.val * b + l.val) * c + e.val = row.val * c + e.val
    rw [hrow])

/-- The reshape back: an [n, c] array reshaped to [a, b, c] reads, at (r, l, e), the operand at (r·b + l, e). -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (e : Fin c) (row : Fin n)
    (hrow : row.val = r.val * b + l.val) :
    shapeCast ⟨3, ![a, b, c]⟩ x h (ix3 r l e) = x (ix2 row e) :=
  shapeCast_apply x h _ _ (by
    rw [Shape.rowMajor_val_two, Shape.rowMajor_val_three]
    show row.val * c + e.val = (r.val * b + l.val) * c + e.val
    rw [hrow])

/-- An [a, b] array reshaped to [a, b, 1] reads, at (p, q, u), the operand at (p, q), whatever the unit coordinate u. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KernelPay.lean ====
/-
  The kernel body's arithmetic, read at an index.

  The body flattens a block of 32 tokens × 200 positions to 6400 rows (row = 200·r + l). Its start value at (row, e) is
  the value map of token (r, l) — a sum over 11 hidden units — times the mask word read as a real. Each of the four
  trips of its loop adds, at (row, e), the product of a one-hot row with 256 rows of the padded table: lane q of the
  one-hot row tests whether the token's id word is the word 256·k + q. The last operation un-flattens the rows.
-/
import proofs.«421624_j3659312136363_3_alg».proof.Proof.Gen.KernelIdeal.Skeleton
import proofs.«421624_j3659312136363_3_alg».proof.Proof.KernelDots
import proofs.«421624_j3659312136363_3_alg».proof.Proof.LibLayout
import proofs.«421624_j3659312136363_3_alg».proof.Proof.Spec
import Idealize.ShloMosaic.Lib.ValueLayout

noncomputable section

namespace Cert.KernelIdeal.Pay

open Cert.KernelIdeal Cert.KernelIdeal.Gen Cert.KernelIdeal.Dots Cert.LibLayout Cert.Spec
open Idealize.ShloMosaic Idealize.ShloMosaic.ValueIdx

theorem tanh_apply {s : Shape} {φ : FTy} (x : FVec Ideal s φ) (i : s.Idx) : tanh x i = Ideal.tanh (x i) := rfl

theorem cmpi_apply {s : Shape} {w : ℕ} (p : CmpIPredicate) (a b : IVec s w) (i : s.Idx) :
    cmpi p a b i = IntOp.cmpi p (a i) (b i) := rfl

theorem addi_apply {s : Shape} {w : ℕ} (a b : IVec s w) (i : s.Idx) : addi a b i = IntOp.addi (a i) (b i) := rfl

/-! ## The words of a trip -/

theorem trips_lt (k : Fin k0_t1_loop.trips) : k.val < 4 := Nat.lt_of_lt_of_le k.isLt k0_t1_abs.2.1

/-- Trip k's first class: the word (0 + k·1)·256 is the number 256·k. -/
theorem chunkBase_toNat (k : ℕ) (hk : k < 4) : (Scalar.muli (Scf.iv 0#32 1#32 k) 256#32).toNat = 256 * k := by
  interval_cases k <;> decide

/-- Class q of trip k: adding lane number q gives the word of the number 256·k + q. -/
theorem chunkWord (k q : ℕ) (hk : k < 4) (hq : q < 256) :
    IntOp.addi (Scalar.muli (Scf.iv 0#32 1#32 k) 256#32) (BitVec.ofNat 32 q) = BitVec.ofNat 32 (256 * k + q) := by
  refine BitVec.eq_of_toNat_eq ?_
  show ((Scalar.muli (Scf.iv 0#32 1#32 k) 256#32) + BitVec.ofNat 32 q).toNat = _
  rw [BitVec.toNat_add, chunkBase_toNat k hk, BitVec.toNat_ofNat, BitVec.toNat_ofNat]
  omega

/-! ## The start value: the value map of the block, masked -/

theorem pay2_at (x0 : Vec Ideal S32x200x1 .f32) (x2 : Vec Ideal S32x200x1 .i32) (x4 : Vec Ideal S1x11 .f32)
    (x5 : Vec Ideal S11 .f32) (x6 : Vec Ideal S11x128 .f32) (r : Fin 32) (l : Fin 200) (e : Fin 128) (row : Fin 6400)
    (hrow : row.val = r.val * 200 + l.val) :
    k0_pay2 (F := Ideal) x0 x2 x4 x5 x6 (ix2 row e)
      = (∑ h : Fin 11, Ideal.tanh (x0 (ix3 r l (0 : Fin 1)) * x4 (ix2 (0 : Fin 1) h) + x5 (ix1 h)) * x6 (ix2 h e))
        * (((x2 (ix3 r l (0 : Fin 1))).toInt : ℝ) : EReal) := by
  unfold k0_pay2
  simp only [mulf_apply, addf_apply, tanh_apply, sitofp_apply, matmulH_apply, broadcastTo_a1_ab_apply,
    broadcastTo_1b_ab_apply, shapeCast_self, shapeCast_a_1a_apply, shapeCast_1a_a_apply,
    shapeCast_merge_apply (r := r) (l := l) (row := row) (hrow := hrow)]
  rfl

/-! ## One trip -/

theorem pay3_at (v3 : Vec Ideal S32x200x1 .i32) (k : Fin k0_t1_loop.trips) (acc : FVec Ideal S6400x128 .f32)
    (v48 : Vec Ideal S256x128 .bf16) (r : Fin 32) (l : Fin 200) (e : Fin 128) (row : Fin 6400)
    (hrow : row.val = r.val * 200 + l.val) :
    k0_pay3 (F := Ideal) v3 k acc v48 (ix2 row e)
      = acc (ix2 row e) + ∑ q : Fin 256, hot (v3 (ix3 r l (0 : Fin 1))) (BitVec.ofNat 32 (256 * k.val + q.val)) * v48 (ix2 q e) := by
  unfold k0_pay3
  simp only [addf_apply, matmulT_apply, truncf_apply, sitofp_apply, extui_apply, cmpi_apply, addi_apply, broadcast_apply,
    iota_single_apply, broadcastTo_a1_ab_apply, broadcastTo_1b_ab_apply, shapeCast_self,
    shapeCast_merge_apply (r := r) (l := l) (row := row) (hrow := hrow)]
  refine congrArg (acc (ix2 row e) + ·) (Finset.sum_congr rfl fun q _ => ?_)
  refine congrArg (· * v48 (ix2 q e)) ?_
  have hw : IntOp.addi (Scalar.muli (Scf.iv 0#32 1#32 k.val) 256#32) (BitVec.ofNat 32 q.val)
      = BitVec.ofNat 32 (256 * k.val + q.val) := chunkWord k.val q.val (trips_lt k) q.isLt
  rw [← hw, iota_single_apply]
  rfl

/-! ## The rows un-flattened -/

theorem pay4_at (v26 : FVec Ideal S6400x128 .f32) (r : Fin 32) (l : Fin 200) (e : Fin 128) (row : Fin 6400)
    (hrow : row.val = r.val * 200 + l.val) : k0_pay4 (F := Ideal) v26 (ix3 r l e) = v26 (ix2 row e) := by
  unfold k0_pay4
  exact shapeCast_split_apply _ _ r l e row hrow

end Cert.KernelIdeal.Pay

end
-- ==== Proof.KernelBlock.lean ====
/-
  One grid point's two output blocks at the exact values, entry by entry.

  At token (r, l) of the block and lane e, the first output holds the masked value map of the token plus — for a token
  whose id lies in [0, 1000] — the staged table's entry at the id's row: of the four partial one-hot products the
  loop adds, the one for the block of 256 classes holding the id contributes that entry and the other three
  contribute 0. The second output holds the id read as a real and clipped to [0, 1].
-/
import proofs.«421624_j3659312136363_3_alg».proof.Proof.KernelPoint
import proofs.«421624_j3659312136363_3_alg».proof.Proof.KernelPay

set_option maxRecDepth 16384

noncomputable section

namespace Cert.KernelIdeal.Block

open Cert.KernelIdeal Cert.KernelIdeal.Gen Cert.KernelIdeal.Point Cert.KernelIdeal.Pay Cert.Spec
open Idealize.ShloMosaic Idealize.ShloMosaic.ValueIdx

/-- The row of the table padded to 1024 rows that an id word names: the same row number as in the table itself. -/
def padRow (v : BitVec 32) : Fin 1024 := ⟨(rowOf v).val, Nat.lt_trans (rowOf v).isLt (by decide)⟩

theorem trips_four : k0_t1_loop.trips = 4 := by decide

/-- Row q of the 256 table rows trip k loads is row 256·k + q of the staged table. -/
theorem tableRows_at (arg8 : Memref sig .tc .vmem S1024x128 .bf16) (harg8 : arg8.IsWhole) (x7 : Vec Ideal S1024x128 .bf16)
    (k : Fin k0_t1_loop.trips) (q : Fin 256) (e : Fin 128) :
    tableRows arg8 (harg8.unread x7) k (ix2 q e)
      = x7 (ix2 (⟨256 * k.val + q.val, by have := trips_lt k; omega⟩ : Fin 1024) e) := by
  unfold tableRows
  rw [harg8.readAt_unread]
  refine congrArg x7 (funext fun a => Fin.ext ?_)
  show (k0_off1 k) a + 1 * ((ix2 q e) a).val = _
  rw [k0_off1_eq]
  match a with
  | ⟨0, _⟩ => show 256 * k.val + 1 * q.val = 256 * k.val + q.val; omega
  | ⟨1, _⟩ => show 0 + 1 * e.val = e.val; omega

/-- The first output block at (r, l, e). -/
theorem out8_at (c : Dev nD) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole)
    (x0 : Vec Ideal S32x200x1 .f32) (x1 : Vec Ideal S32x200x1 .i32) (x2 : Vec Ideal S32x200x1 .i32) (x3 : Vec Ideal S32x200 .i32)
    (x4 : Vec Ideal S1x11 .f32) (x5 : Vec Ideal S11 .f32) (x6 : Vec Ideal S11x128 .f32) (x7 : Vec Ideal S1024x128 .bf16)
    (r : Fin 32) (l : Fin 200) (e : Fin 128)
    (h0 : 0 ≤ (x1 (ix3 r l (0 : Fin 1))).toInt) (h1 : (x1 (ix3 r l (0 : Fin 1))).toInt ≤ 1000) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix3 r l e)
      = (∑ h : Fin 11, Ideal.tanh (x0 (ix3 r l (0 : Fin 1)) * x4 (ix2 (0 : Fin 1) h) + x5 (ix1 h)) * x6 (ix2 h e))
          * (((x2 (ix3 r l (0 : Fin 1))).toInt : ℝ) : EReal)
        + x7 (ix2 (padRow (x1 (ix3 r l (0 : Fin 1)))) e) := by
  have hr : r.val * 200 + l.val < 6400 := by have := r.isLt; have := l.isLt; omega
  have hrow : (⟨r.val * 200 + l.val, hr⟩ : Fin 6400).val = r.val * 200 + l.val := rfl
  have t0 : 0 < k0_t1_loop.trips := by rw [trips_four]; decide
  have t1 : 1 < k0_t1_loop.trips := by rw [trips_four]; decide
  have t2 : 2 < k0_t1_loop.trips := by rw [trips_four]; decide
  have t3 : 3 < k0_t1_loop.trips := by rw [trips_four]; decide
  rw [out8_piece, pay4_at _ r l e _ hrow, st_four Variants.none c none i arg1 harg1 arg2 harg2 arg3 harg3 arg4 harg4 arg5 harg5 arg6 harg6 arg7 harg7 arg8 harg8 arg9 harg9 arg10 harg10 x1 (harg8.unread x7) _ t0 t1 t2 t3,
    pay3_at x1 ⟨3, t3⟩ _ _ r l e _ hrow, pay3_at x1 ⟨2, t2⟩ _ _ r l e _ hrow, pay3_at x1 ⟨1, t1⟩ _ _ r l e _ hrow,
    pay3_at x1 ⟨0, t0⟩ _ _ r l e _ hrow, pay2_at x0 x2 x4 x5 x6 r l e _ hrow]
  have hvn : (x1 (ix3 r l (0 : Fin 1))).toNat < 1024 := by
    have := rowOf_val _ h0 h1; have := (rowOf (x1 (ix3 r l (0 : Fin 1)))).isLt; omega
  have hS : ∀ k : Fin k0_t1_loop.trips,
      (∑ q : Fin 256, hot (x1 (ix3 r l (0 : Fin 1))) (BitVec.ofNat 32 (256 * k.val + q.val))
          * tableRows arg8 (harg8.unread x7) k (ix2 q e))
        = if (x1 (ix3 r l (0 : Fin 1))).toNat / 256 = k.val then x7 (ix2 ⟨(x1 (ix3 r l (0 : Fin 1))).toNat, hvn⟩ e) else 0 := by
    intro k
    rw [← chunk_sum _ hvn (fun n => x7 (ix2 n e)) ⟨k.val, trips_lt k⟩]
    exact Finset.sum_congr rfl fun q _ => by rw [tableRows_at]
  rw [hS, hS, hS, hS]
  have hq : (x1 (ix3 r l (0 : Fin 1))).toNat / 256 < 4 := by omega
  refine (fold4 _ (x7 (ix2 ⟨(x1 (ix3 r l (0 : Fin 1))).toNat, hvn⟩ e))
    (fun cc : Fin 4 => if (x1 (ix3 r l (0 : Fin 1))).toNat / 256 = cc.val
      then x7 (ix2 ⟨(x1 (ix3 r l (0 : Fin 1))).toNat, hvn⟩ e) else 0) _ hq (fun _ => rfl)).trans ?_
  refine congrArg (_ + ·) (congrArg x7 (congrArg (fun n => ix2 n e) (Fin.ext ?_)))
  exact (rowOf_val _ h0 h1).symm

/-- The second output block at (r, l). -/
theorem out9_at (c : Dev nD) (i : grid0.Coords) (arg1 : Memref sig .tc .vmem S32x200x1 .f32) (harg1 : arg1.IsWhole) (arg2 : Memref sig .tc .vmem S32x200x1 .i32) (harg2 : arg2.IsWhole) (arg3 : Memref sig .tc .vmem S32x200x1 .i32) (harg3 : arg3.IsWhole) (arg4 : Memref sig .tc .vmem S32x200 .i32) (harg4 : arg4.IsWhole) (arg5 : Memref sig .tc .vmem S1x11 .f32) (harg5 : arg5.IsWhole) (arg6 : Memref sig .tc .vmem S11 .f32) (harg6 : arg6.IsWhole) (arg7 : Memref sig .tc .vmem S11x128 .f32) (harg7 : arg7.IsWhole) (arg8 : Memref sig .tc .vmem S1024x128 .bf16) (harg8 : arg8.IsWhole) (arg9 : Memref sig .tc .vmem S32x200x128 .f32) (harg9 : arg9.IsWhole) (arg10 : Memref sig .tc .vmem S32x200 .f32) (harg10 : arg10.IsWhole)
    (x0 : Vec Ideal S32x200x1 .f32) (x1 : Vec Ideal S32x200x1 .i32) (x2 : Vec Ideal S32x200x1 .i32) (x3 : Vec Ideal S32x200 .i32)
    (x4 : Vec Ideal S1x11 .f32) (x5 : Vec Ideal S11 .f32) (x6 : Vec Ideal S11x128 .f32) (x7 : Vec Ideal S1024x128 .bf16)
    (j : S32x200.Idx) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 j
      = min (Ideal.ofBits .f32 0x3F800000#32) (max (Ideal.ofBits .f32 0x00000000#32) (((x3 j).toInt : ℝ) : EReal)) := by
  rw [out9_piece]
  rfl

end Cert.KernelIdeal.Block

end
-- ==== Proof.KernelArray.lean ====
/-
  From blocks to arrays: after the run, the kernel's two result arrays are the target functions of the seven
  argument arrays, provided every id lies in [0, 1000].

  Grid point t handles rows 32·t … 32·t + 31 of the 4096. Its input blocks are those rows of the value, id and mask
  arrays (staged through a reshape that appends a unit axis), the whole of the small weight arrays, and the whole
  staged table — the table argument padded with 23 zero rows, of which an id in range only ever names one of the
  first 1001. What the point writes back is therefore those rows of the target, and the 128 points' blocks tile the
  arrays.
-/
import proofs.«421624_j3659312136363_3_alg».proof.Proof.Gen.KernelIdeal.Value
import proofs.«421624_j3659312136363_3_alg».proof.Proof.KernelBlock
import proofs.«421624_j3659312136363_3_alg».proof.Proof.LibLayout
import Idealize.ShloMosaic.Lib.KernelVsHost
import Idealize.ShloMosaic.Lib.StableHlo.Run

set_option maxRecDepth 16384

noncomputable section

namespace Cert.KernelIdeal.Arr

open Cert.KernelIdeal Cert.KernelIdeal.Gen Cert.KernelIdeal.Block Cert.Spec Cert.LibLayout
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The argument arrays, and the arrays the windows stage -/

abbrev A0 (c : Dev nD) : FVec Ideal S4096x200 .f32 := m ((c : Thread nD τ).loc main_arg0)
abbrev A1 (c : Dev nD) : IVec S4096x200 32 := m ((c : Thread nD τ).loc main_arg1)
abbrev A2 (c : Dev nD) : IVec S4096x200 32 := m ((c : Thread nD τ).loc main_arg2)
abbrev A3 (c : Dev nD) : FVec Ideal S1x11 .f32 := m ((c : Thread nD τ).loc main_arg3)
abbrev A4 (c : Dev nD) : FVec Ideal S11 .f32 := m ((c : Thread nD τ).loc main_arg4)
abbrev A5 (c : Dev nD) : FVec Ideal S11x128 .f32 := m ((c : Thread nD τ).loc main_arg5)
abbrev A6 (c : Dev nD) : FVec Ideal S1001x128 .f32 := m ((c : Thread nD τ).loc main_arg6)

theorem V_v2 (c : Dev nD) : (V m c main_v2 : S4096x200x1.Idx → EReal)
    = shapeCast S4096x200x1 (A0 m c) shapeCasts_S4096x200_S4096x200x1 := by
  dsimp only [V]
  simp only [hostOps0, hostOps0_1, hostOps0_2, List.flatten_cons, List.flatten_nil, List.append_nil, List.cons_append,
    List.nil_append]
  after_results
  rfl

theorem V_v3 (c : Dev nD) : (V m c main_v3 : S4096x200x1.Idx → BitVec 32)
    = shapeCast S4096x200x1 (A1 m c) shapeCasts_S4096x200_S4096x200x1 := by
  dsimp only [V]
  simp only [hostOps0, hostOps0_1, hostOps0_2, List.flatten_cons, List.flatten_nil, List.append_nil, List.cons_append,
    List.nil_append]
  after_results
  rfl

theorem V_v4 (c : Dev nD) : (V m c main_v4 : S4096x200x1.Idx → BitVec 32)
    = shapeCast S4096x200x1 (A2 m c) shapeCasts_S4096x200_S4096x200x1 := by
  dsimp only [V]
  simp only [hostOps0, hostOps0_1, hostOps0_2, List.flatten_cons, List.flatten_nil, List.append_nil, List.cons_append,
    List.nil_append]
  after_results
  rfl

/-- The staged table: the table argument padded with 23 rows of the converted integer 0, its format changed. -/
theorem V_v1 (c : Dev nD) : (V m c main_v1 : S1024x128.Idx → EReal)
    = truncf .bf16 (pad S1024x128 ![0, 0] ![23, 0] ![0, 0] (A6 m c) (sitofp (F := Ideal) .f32 (constantI S_ 32 0#32))
        pads_S1001x128_S1024x128_0230_000 h_S_) bitsLt_bf16_f32 := by
  dsimp only [V]
  simp only [hostOps0, hostOps0_1, hostOps0_2, List.flatten_cons, List.flatten_nil, List.append_nil, List.cons_append,
    List.nil_append]
  after_results
  rfl

/-- A row of the staged table that lies in the table argument is that row of the argument. -/
theorem table_at (c : Dev nD) (n : Fin 1024) (hn : n.val < 1001) (e : Fin 128) :
    V m c main_v1 (ix2 n e) = A6 m c (ix2 (⟨n.val, hn⟩ : Fin 1001) e) := by
  rw [V_v1, truncf_apply]
  refine pad_apply_of_inside _ _ _ _ _ _ _ (ix2 n e) (ix2 (⟨n.val, hn⟩ : Fin 1001) e) (fun a => ?_)
  match a with
  | ⟨0, _⟩ => show n.val = 0 + n.val * (0 + 1); omega
  | ⟨1, _⟩ => show e.val = 0 + e.val * (0 + 1); omega

/-! ## The windows' index maps over the grid -/

theorem N128 (t : Fin cfg0.N) : t.val < 128 := lt_of_lt_of_eq t.isLt N_0

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

/-- Row r of point t's block is row 32·t + r of the arrays. -/
def bigRow (t : Fin cfg0.N) (r : Fin 32) : Fin 4096 := ⟨32 * t.val + r.val, by have := N128 t; have := r.isLt; omega⟩

/-! ## The input blocks, read where the output's rectangle says -/

theorem blk0_at (c : Dev nD) (t : Fin cfg0.N) (r : Fin 32) (l : Fin 200) :
    iblk m c 0 t (ix3 r l (0 : Fin 1)) = A0 m c (ix2 (bigRow t r) l) := by
  show V m c main_v2 (((cfg0.win 0).blk t).view.emb (ix3 r l (0 : Fin 1))) = _
  have he : ((cfg0.win 0).blk t).view.emb (ix3 r l (0 : Fin 1)) = ix3 (bigRow t r) l (0 : Fin 1) :=
    funext fun a => Fin.ext (by
      obtain ⟨e0, e1, e2, -⟩ := idx_facts t
      match a with
      | ⟨0, _⟩ => show win0_0.index t (0 : Fin 3) * 32 + 1 * r.val = 32 * t.val + r.val; omega
      | ⟨1, _⟩ => show win0_0.index t (1 : Fin 3) * 200 + 1 * l.val = l.val; omega
      | ⟨2, _⟩ => show win0_0.index t (2 : Fin 3) * 1 + 1 * 0 = 0; omega)
  rw [he, V_v2, shapeCast_ab_ab1_apply]

theorem blk1_at (c : Dev nD) (t : Fin cfg0.N) (r : Fin 32) (l : Fin 200) :
    iblk m c 1 t (ix3 r l (0 : Fin 1)) = A1 m c (ix2 (bigRow t r) l) := by
  show V m c main_v3 (((cfg0.win 1).blk t).view.emb (ix3 r l (0 : Fin 1))) = _
  have he : ((cfg0.win 1).blk t).view.emb (ix3 r l (0 : Fin 1)) = ix3 (bigRow t r) l (0 : Fin 1) :=
    funext fun a => Fin.ext (by
      obtain ⟨-, -, -, e0, e1, e2, -⟩ := idx_facts t
      match a with
      | ⟨0, _⟩ => show win0_1.index t (0 : Fin 3) * 32 + 1 * r.val = 32 * t.val + r.val; omega
      | ⟨1, _⟩ => show win0_1.index t (1 : Fin 3) * 200 + 1 * l.val = l.val; omega
      | ⟨2, _⟩ => show win0_1.index t (2 : Fin 3) * 1 + 1 * 0 = 0; omega)
  rw [he, V_v3, shapeCast_ab_ab1_apply]

theorem blk2_at (c : Dev nD) (t : Fin cfg0.N) (r : Fin 32) (l : Fin 200) :
    iblk m c 2 t (ix3 r l (0 : Fin 1)) = A2 m c (ix2 (bigRow t r) l) := by
  show V m c main_v4 (((cfg0.win 2).blk t).view.emb (ix3 r l (0 : Fin 1))) = _
  have he : ((cfg0.win 2).blk t).view.emb (ix3 r l (0 : Fin 1)) = ix3 (bigRow t r) l (0 : Fin 1) :=
    funext fun a => Fin.ext (by
      obtain ⟨-, -, -, -, -, -, e0, e1, e2, -⟩ := idx_facts t
      match a with
      | ⟨0, _⟩ => show win0_2.index t (0 : Fin 3) * 32 + 1 * r.val = 32 * t.val + r.val; omega
      | ⟨1, _⟩ => show win0_2.index t (1 : Fin 3) * 200 + 1 * l.val = l.val; omega
      | ⟨2, _⟩ => show win0_2.index t (2 : Fin 3) * 1 + 1 * 0 = 0; omega)
  rw [he, V_v4, shapeCast_ab_ab1_apply]

theorem blk3_at (c : Dev nD) (t : Fin cfg0.N) (r : Fin 32) (l : Fin 200) :
    iblk m c 3 t (ix2 r l) = A1 m c (ix2 (bigRow t r) l) := by
  show V m c main_arg1 (((cfg0.win 3).blk t).view.emb (ix2 r l)) = _
  have he : ((cfg0.win 3).blk t).view.emb (ix2 r l) = ix2 (bigRow t r) l :=
    funext fun a => Fin.ext (by
      obtain ⟨-, -, -, -, -, -, -, -, -, e0, e1, -⟩ := idx_facts t
      match a with
      | ⟨0, _⟩ => show win0_3.index t (0 : Fin 2) * 32 + 1 * r.val = 32 * t.val + r.val; omega
      | ⟨1, _⟩ => show win0_3.index t (1 : Fin 2) * 200 + 1 * l.val = l.val; omega)
  rw [he, V_main_arg1]

theorem blk4_at (c : Dev nD) (t : Fin cfg0.N) (h : Fin 11) : iblk m c 4 t (ix2 (0 : Fin 1) h) = A3 m c (ix2 (0 : Fin 1) h) := by
  show V m c main_arg3 (((cfg0.win 4).blk t).view.emb (ix2 (0 : Fin 1) h)) = _
  have he : ((cfg0.win 4).blk t).view.emb (ix2 (0 : Fin 1) h) = ix2 (0 : Fin 1) h :=
    funext fun a => Fin.ext (by
      obtain ⟨-, -, -, -, -, -, -, -, -, -, -, e0, e1, -⟩ := idx_facts t
      match a with
      | ⟨0, _⟩ => show win0_4.index t (0 : Fin 2) * 1 + 1 * 0 = 0; omega
      | ⟨1, _⟩ => show win0_4.index t (1 : Fin 2) * 11 + 1 * h.val = h.val; omega)
  rw [he, V_main_arg3]

theorem blk5_at (c : Dev nD) (t : Fin cfg0.N) (h : Fin 11) : iblk m c 5 t (ix1 h) = A4 m c (ix1 h) := by
  show V m c main_arg4 (((cfg0.win 5).blk t).view.emb (ix1 h)) = _
  have he : ((cfg0.win 5).blk t).view.emb (ix1 h) = ix1 h :=
    funext fun a => Fin.ext (by
      obtain ⟨-, -, -, -, -, -, -, -, -, -, -, -, -, e0, -⟩ := idx_facts t
      match a with
      | ⟨0, _⟩ => show win0_5.index t (0 : Fin 1) * 11 + 1 * h.val = h.val; omega)
  rw [he, V_main_arg4]

theorem blk6_at (c : Dev nD) (t : Fin cfg0.N) (h : Fin 11) (e : Fin 128) : iblk m c 6 t (ix2 h e) = A5 m c (ix2 h e) := by
  show V m c main_arg5 (((cfg0.win 6).blk t).view.emb (ix2 h e)) = _
  have he : ((cfg0.win 6).blk t).view.emb (ix2 h e) = ix2 h e :=
    funext fun a => Fin.ext (by
      obtain ⟨-, -, -, -, -, -, -, -, -, -, -, -, -, -, e0, e1, -⟩ := idx_facts t
      match a with
      | ⟨0, _⟩ => show win0_6.index t (0 : Fin 2) * 11 + 1 * h.val = h.val; omega
      | ⟨1, _⟩ => show win0_6.index t (1 : Fin 2) * 128 + 1 * e.val = e.val; omega)
  rw [he, V_main_arg5]

theorem blk7_at (c : Dev nD) (t : Fin cfg0.N) (n : Fin 1024) (e : Fin 128) : iblk m c 7 t (ix2 n e) = V m c main_v1 (ix2 n e) := by
  show V m c main_v1 (((cfg0.win 7).blk t).view.emb (ix2 n e)) = _
  have he : ((cfg0.win 7).blk t).view.emb (ix2 n e) = ix2 n e :=
    funext fun a => Fin.ext (by
      obtain ⟨-, -, -, -, -, -, -, -, -, -, -, -, -, -, -, -, e0, e1, -⟩ := idx_facts t
      match a with
      | ⟨0, _⟩ => show win0_7.index t (0 : Fin 2) * 1024 + 1 * n.val = n.val; omega
      | ⟨1, _⟩ => show win0_7.index t (1 : Fin 2) * 128 + 1 * e.val = e.val; omega)
  rw [he]

/-! ## What a point writes back -/

theorem emb8 (t : Fin cfg0.N) (r : Fin 32) (l : Fin 200) (e : Fin 128) :
    ((cfg0.win 8).blk t).view.emb (ix3 r l e) = ix3 (bigRow t r) l e :=
  funext fun a => Fin.ext (by
    obtain ⟨-, -, -, -, -, -, -, -, -, -, -, -, -, -, -, -, -, -, e0, e1, e2, -⟩ := idx_facts t
    match a with
    | ⟨0, _⟩ => show win0_8.index t (0 : Fin 3) * 32 + 1 * r.val = 32 * t.val + r.val; omega
    | ⟨1, _⟩ => show win0_8.index t (1 : Fin 3) * 200 + 1 * l.val = l.val; omega
    | ⟨2, _⟩ => show win0_8.index t (2 : Fin 3) * 128 + 1 * e.val = e.val; omega)

theorem emb9 (t : Fin cfg0.N) (r : Fin 32) (l : Fin 200) :
    ((cfg0.win 9).blk t).view.emb (ix2 r l) = ix2 (bigRow t r) l :=
  funext fun a => Fin.ext (by
    obtain ⟨-, -, -, -, -, -, -, -, -, -, -, -, -, -, -, -, -, -, -, -, -, e0, e1⟩ := idx_facts t
    match a with
    | ⟨0, _⟩ => show win0_9.index t (0 : Fin 2) * 32 + 1 * r.val = 32 * t.val + r.val; omega
    | ⟨1, _⟩ => show win0_9.index t (1 : Fin 2) * 200 + 1 * l.val = l.val; omega)

/-- Point t writes back its 32 rows of the first target. -/
theorem flushed8_eq (c : Dev nD) (hid : ∀ j, 0 ≤ (A1 m c j).toInt ∧ (A1 m c j).toInt ≤ 1000) (t : Fin cfg0.N) :
    (dats m 0 c).flushed 8 t = ((cfg0.win 8).blk t).view.read (Elt Ideal)
      (sumEmb (A0 m c) (A1 m c) (A2 m c) (A3 m c) (A4 m c) (A5 m c) (A6 m c)) := by
  rw [Value.flushed8_A]
  funext j
  obtain ⟨r, l, e, rfl⟩ : ∃ (r : Fin 32) (l : Fin 200) (e : Fin 128), j = ix3 r l e := ⟨j 0, j 1, j 2, eq_ix3 j⟩
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix3 r l e)
    = sumEmb (A0 m c) (A1 m c) (A2 m c) (A3 m c) (A4 m c) (A5 m c) (A6 m c) (((cfg0.win 8).blk t).view.emb (ix3 r l e))
  have hv := hid (ix2 (bigRow t r) l)
  rw [emb8, out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) r l e
    (by rw [blk1_at]; exact hv.1) (by rw [blk1_at]; exact hv.2)]
  have hn : (padRow (A1 m c (ix2 (bigRow t r) l))).val < 1001 := (rowOf (A1 m c (ix2 (bigRow t r) l))).isLt
  rw [blk0_at, blk1_at, blk2_at, blk7_at, table_at m c _ hn]
  show _ = mlp (A0 m c) (A3 m c) (A4 m c) (A5 m c) (bigRow t r) l e * (((A2 m c (ix2 (bigRow t r) l)).toInt : ℝ) : EReal)
    + A6 m c (ix2 (rowOf (A1 m c (ix2 (bigRow t r) l))) e)
  refine congrArg₂ (· + ·) (congrArg (· * _) ?_) rfl
  exact Finset.sum_congr rfl fun h _ => by rw [blk4_at, blk5_at, blk6_at]

/-- Point t writes back its 32 rows of the second target. -/
theorem flushed9_eq (c : Dev nD) (t : Fin cfg0.N) :
    (dats m 0 c).flushed 9 t = ((cfg0.win 9).blk t).view.read (Elt Ideal) (padMask (A1 m c)) := by
  rw [Value.flushed9_A]
  funext j
  obtain ⟨r, l, rfl⟩ : ∃ (r : Fin 32) (l : Fin 200), j = ix2 r l := ⟨j 0, j 1, eq_ix2 j⟩
  show out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix2 r l)
    = padMask (A1 m c) (((cfg0.win 9).blk t).view.emb (ix2 r l))
  rw [emb9, out9_at, blk3_at]
  rfl

/-! ## The blocks tile the arrays -/

theorem mem_blk8 (t : Fin cfg0.N) (i : S4096x200x128.Idx) :
    i ∈ ((cfg0.win 8).blk t).view.set ↔ ∀ a : Fin 3, win0_8.index t a * S32x200x128.size a ≤ (i a).val
      ∧ (i a).val < win0_8.index t a * S32x200x128.size a + S32x200x128.size a := by
  show i ∈ ((View.whole main_v5_0).slice (win0_8.rect t)).set ↔ _
  rw [View.set_slice_whole, Rect.mem_set_unit]
  exact Iff.rfl

theorem mem_blk9 (t : Fin cfg0.N) (i : S4096x200.Idx) :
    i ∈ ((cfg0.win 9).blk t).view.set ↔ ∀ a : Fin 2, win0_9.index t a * S32x200.size a ≤ (i a).val
      ∧ (i a).val < win0_9.index t a * S32x200.size a + S32x200.size a := by
  show i ∈ ((View.whole main_v5_1).slice (win0_9.rect t)).set ↔ _
  rw [View.set_slice_whole, Rect.mem_set_unit]
  exact Iff.rfl

/-- The point whose block holds row n: n / 32. -/
def pointOf (n : Fin 4096) : Fin cfg0.N := ⟨n.val / 32, by show n.val / 32 < grid0.N; rw [N_0]; have := n.isLt; omega⟩

theorem cover8 (i : S4096x200x128.Idx) : ∃ t : Fin cfg0.N, (cfg0.win 8).flush t = true ∧ i ∈ ((cfg0.win 8).blk t).view.set := by
  refine ⟨pointOf (i 0), flush0_8 _, ?_⟩
  rw [mem_blk8]
  obtain ⟨-, -, -, -, -, -, -, -, -, -, -, -, -, -, -, -, -, -, e0, e1, e2, -⟩ := idx_facts (pointOf (i 0))
  have ht : (pointOf (i 0)).val = (i 0).val / 32 := rfl
  have h0 : (i 0).val < 4096 := (i 0).isLt
  have h1 : (i 1).val < 200 := (i 1).isLt
  have h2 : (i 2).val < 128 := (i 2).isLt
  intro a
  match a with
  | ⟨0, _⟩ => show win0_8.index (pointOf (i 0)) (0 : Fin 3) * 32 ≤ (i 0).val ∧ (i 0).val < win0_8.index (pointOf (i 0)) (0 : Fin 3) * 32 + 32; omega
  | ⟨1, _⟩ => show win0_8.index (pointOf (i 0)) (1 : Fin 3) * 200 ≤ (i 1).val ∧ (i 1).val < win0_8.index (pointOf (i 0)) (1 : Fin 3) * 200 + 200; omega
  | ⟨2, _⟩ => show win0_8.index (pointOf (i 0)) (2 : Fin 3) * 128 ≤ (i 2).val ∧ (i 2).val < win0_8.index (pointOf (i 0)) (2 : Fin 3) * 128 + 128; omega

theorem cover9 (i : S4096x200.Idx) : ∃ t : Fin cfg0.N, (cfg0.win 9).flush t = true ∧ i ∈ ((cfg0.win 9).blk t).view.set := by
  refine ⟨pointOf (i 0), flush0_9 _, ?_⟩
  rw [mem_blk9]
  obtain ⟨-, -, -, -, -, -, -, -, -, -, -, -, -, -, -, -, -, -, -, -, -, e0, e1⟩ := idx_facts (pointOf (i 0))
  have ht : (pointOf (i 0)).val = (i 0).val / 32 := rfl
  have h0 : (i 0).val < 4096 := (i 0).isLt
  have h1 : (i 1).val < 200 := (i 1).isLt
  intro a
  match a with
  | ⟨0, _⟩ => show win0_9.index (pointOf (i 0)) (0 : Fin 2) * 32 ≤ (i 0).val ∧ (i 0).val < win0_9.index (pointOf (i 0)) (0 : Fin 2) * 32 + 32; omega
  | ⟨1, _⟩ => show win0_9.index (pointOf (i 0)) (1 : Fin 2) * 200 ≤ (i 1).val ∧ (i 1).val < win0_9.index (pointOf (i 0)) (1 : Fin 2) * 200 + 200; omega

/-! ## The arrays after the run -/

theorem final8 (c : Dev nD) (hid : ∀ j, 0 ≤ (A1 m c j).toInt ∧ (A1 m c j).toInt ≤ 1000) :
    (dats m 0 c).arrAt 8 cfg0.N = sumEmb (A0 m c) (A1 m c) (A2 m c) (A3 m c) (A4 m c) (A5 m c) (A6 m c) :=
  (dats m 0 c).arrAt_eq_of_cover 8 _ (fun t _ => flushed8_eq m c hid t) cover8

theorem final9 (c : Dev nD) : (dats m 0 c).arrAt 9 cfg0.N = padMask (A1 m c) :=
  (dats m 0 c).arrAt_eq_of_cover 9 _ (fun t _ => flushed9_eq m c t) cover9

end Cert.KernelIdeal.Arr

end
-- ==== Proof.lean ====
/-
  A tabular encoder: for each of 4096 × 200 tokens a scalar value is mapped through a small two-layer map
  (1 → 11 → 128, tanh between the layers), multiplied by the token's mask word, and added to row id of a 1001-row
  embedding table; a second result clips the id, read as a real, to [0, 1].

  The kernel and its reference agree on the value map term by term — the same products and sums, a dot product over
  the 11 hidden units on both sides, the same tanh — so over the extended reals that part is equal with no appeal to
  finiteness. They differ in how they reach the table row. The reference gathers row id directly (ids below zero
  wrapped, ids past the table clamped to its last row). The kernel pads the table with zero rows to 1024 and
  multiplies it by a one-hot row, 256 classes at a time over four trips of a loop, adding the partial products onto
  the masked value map. Since 0 · x = 0 and 1 · x = x for every extended real x, each partial product is either the
  table entry of row id (for the one block of classes that holds id) or 0, and the four add up to that entry. This
  needs 0 ≤ id ≤ 1000: outside that range the two programs name different rows, so the precondition carries that
  range beside the finiteness of the float inputs, and the proof reads it back from there.

  The three frames are the generated ones (the reference's is its generated run with the results dropped); the
  idealization made no rewrite, so nothing is to be preserved; the algebraic claim sets the kernel's run, its result
  arrays read block by block off the 128 grid points, beside the reference's run read one operation at a time, both
  ending at the same two functions of the argument arrays.
-/
import proofs.«421624_j3659312136363_3_alg».proof.Defs
import proofs.«421624_j3659312136363_3_alg».proof.Proof.Gen.Kernel
import proofs.«421624_j3659312136363_3_alg».proof.Proof.Gen.Kernel.Skeleton
import proofs.«421624_j3659312136363_3_alg».proof.Proof.Gen.Kernel.Loops
import proofs.«421624_j3659312136363_3_alg».proof.Proof.Gen.Kernel.Launch
import proofs.«421624_j3659312136363_3_alg».proof.Proof.Gen.Kernel.Points
import proofs.«421624_j3659312136363_3_alg».proof.Proof.Gen.Kernel.Frame
import proofs.«421624_j3659312136363_3_alg».proof.Proof.Gen.KernelIdeal
import proofs.«421624_j3659312136363_3_alg».proof.Proof.Gen.KernelIdeal.Skeleton
import proofs.«421624_j3659312136363_3_alg».proof.Proof.Gen.KernelIdeal.Loops
import proofs.«421624_j3659312136363_3_alg».proof.Proof.Gen.KernelIdeal.Launch
import proofs.«421624_j3659312136363_3_alg».proof.Proof.Gen.KernelIdeal.Points
import proofs.«421624_j3659312136363_3_alg».proof.Proof.Gen.KernelIdeal.Frame
import proofs.«421624_j3659312136363_3_alg».proof.Proof.Gen.ReferenceIdeal
import proofs.«421624_j3659312136363_3_alg».proof.Proof.Gen.Pre_finite_inputs
import proofs.«421624_j3659312136363_3_alg».proof.Proof.Gen.KernelIdeal.Value
import proofs.«421624_j3659312136363_3_alg».proof.Proof.Gen.ReferenceIdeal.Run
import proofs.«421624_j3659312136363_3_alg».proof.Proof.Gen.ReferenceIdeal.Read
import proofs.«421624_j3659312136363_3_alg».proof.Proof.PreRead
import proofs.«421624_j3659312136363_3_alg».proof.Proof.RefValue
import proofs.«421624_j3659312136363_3_alg».proof.Proof.KernelArray
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the masked value map plus the id's table row, and with the clipped id: the kernel's arrays by
    its blocks and the four partial one-hot products, the reference's by its operations read at an index, the ids in
    range by the precondition. -/
theorem algebraic : Cert.algebraic_KernelIdeal_ReferenceIdeal := by
  intro m ρ m' ρ' hpre hagree
  have hid : ∀ (c : Dev Cert.KernelIdeal.nD) j, 0 ≤ (Cert.KernelIdeal.Arr.A1 m c j).toInt
      ∧ (Cert.KernelIdeal.Arr.A1 m c j).toInt ≤ 1000 :=
    fun c j => Cert.PreRead.ids_in_range _ _ _ _ _ _ _ (hpre c) j
  refine ⟨fun c => sumEmb (Cert.KernelIdeal.Arr.A0 m c) (Cert.KernelIdeal.Arr.A1 m c) (Cert.KernelIdeal.Arr.A2 m c)
      (Cert.KernelIdeal.Arr.A3 m c) (Cert.KernelIdeal.Arr.A4 m c) (Cert.KernelIdeal.Arr.A5 m c) (Cert.KernelIdeal.Arr.A6 m c),
    fun c => padMask (Cert.KernelIdeal.Arr.A1 m c), ?_, ?_⟩
  · exact (θ_run Cert.KernelIdeal.defs _ _).mono (fun r h c =>
      ⟨(h c).1.trans (Cert.KernelIdeal.Arr.final8 m c (hid c)), (h c).2.1.trans (Cert.KernelIdeal.Arr.final9 m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · rw [(h c).1, (hagree c).1, (hagree c).2.1, (hagree c).2.2.1, (hagree c).2.2.2.1, (hagree c).2.2.2.2.1,
        (hagree c).2.2.2.2.2.1, (hagree c).2.2.2.2.2.2]
      exact (Cert.ReferenceIdeal.Read.val_main_v22_eq _ _ _ _ _ _ _).trans
        (Cert.ReferenceIdeal.RefValue.sum_eq _ _ _ _ _ _ _ (fun j => (hid c j).1))
    · rw [(h c).2.1, (hagree c).2.1]
      exact (Cert.ReferenceIdeal.Read.val_main_v24_eq _).trans (Cert.ReferenceIdeal.RefValue.clip_eq _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
